-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x50 : Shape := ⟨2, ![50000, 50]⟩
abbrev S2x800000 : Shape := ⟨2, ![2, 800000]⟩
abbrev S50x256 : Shape := ⟨2, ![50, 256]⟩
abbrev S256 : Shape := ⟨1, ![256]⟩
abbrev S256x121 : Shape := ⟨2, ![256, 121]⟩
abbrev S121 : Shape := ⟨1, ![121]⟩
abbrev S_ : Shape := ⟨0, ![]⟩

class Facts : Prop where
  bcast_S_S50000x50 : S_.BroadcastsInDim S50000x50 (![] : Fin 0 → Fin S50000x50.rank)
  reducesTo_S50000x50_S_d0_1 : S50000x50.ReducesTo [0, 1] S_
  h_S_ : 0 < S_.numel
  bcast_S_S50x256 : S_.BroadcastsInDim S50x256 (![] : Fin 0 → Fin S50x256.rank)
  reducesTo_S50x256_S_d0_1 : S50x256.ReducesTo [0, 1] S_
  bcast_S_S256 : S_.BroadcastsInDim S256 (![] : Fin 0 → Fin S256.rank)
  reducesTo_S256_S_d0 : S256.ReducesTo [0] S_
  bcast_S_S256x121 : S_.BroadcastsInDim S256x121 (![] : Fin 0 → Fin S256x121.rank)
  reducesTo_S256x121_S_d0_1 : S256x121.ReducesTo [0, 1] S_
  bcast_S_S121 : S_.BroadcastsInDim S121 (![] : Fin 0 → Fin S121.rank)
  reducesTo_S121_S_d0 : S121.ReducesTo [0] S_

variable [Facts]

def fn_part3 {F : FTy → Type} [FloatOps F] (main_v48 : IVec S_ 1) (main_v49 : FVec F S121 .f32) (main_v50 : FVec F S121 .f32) : IVec S_ 1 :=
  let main_v51 : IVec S121 1 := cmpf .olt main_v49 main_v50
  let main_c_19 : IVec S_ 1 := constantI S_ 1 1#1
  let main_v52 : IVec S_ 1 := (fun x v => Host.reduce IntOp.andi x v reducesTo_S121_S_d0 h_S_) main_v51 main_c_19
  let main_v53 : IVec S_ 1 := andi main_v48 main_v52
  main_v53

def fn_part2 {F : FTy → Type} [FloatOps F] (main_arg8 : FVec F S121 .f32) (main_arg9 : FVec F S256x121 .f32) (main_arg10 : FVec F S256x121 .f32) (main_arg11 : FVec F S121 .f32) (main_v33 : IVec S_ 1) : IVec S_ 1 :=
  let main_v34 : FVec F S121 .f32 := Host.absf main_arg8
  let main_cst_12 : FVec F S_ .f32 := constant S_ .f32 0x7F800000#32
  let main_v35 : FVec F S121 .f32 := broadcastInDim S121 ![] bcast_S_S121 main_cst_12
  let main_v36 : IVec S121 1 := cmpf .olt main_v34 main_v35
  let main_c_13 : IVec S_ 1 := constantI S_ 1 1#1
  let main_v37 : IVec S_ 1 := (fun x v => Host.reduce IntOp.andi x v reducesTo_S121_S_d0 h_S_) main_v36 main_c_13
  let main_v38 : IVec S_ 1 := andi main_v33 main_v37
  let main_v39 : FVec F S256x121 .f32 := Host.absf main_arg9
  let main_cst_14 : FVec F S_ .f32 := constant S_ .f32 0x7F800000#32
  let main_v40 : FVec F S256x121 .f32 := broadcastInDim S256x121 ![] bcast_S_S256x121 main_cst_14
  let main_v41 : IVec S256x121 1 := cmpf .olt main_v39 main_v40
  let main_c_15 : IVec S_ 1 := constantI S_ 1 1#1
  let main_v42 : IVec S_ 1 := (fun x v => Host.reduce IntOp.andi x v reducesTo_S256x121_S_d0_1 h_S_) main_v41 main_c_15
  let main_v43 : IVec S_ 1 := andi main_v38 main_v42
  let main_v44 : FVec F S256x121 .f32 := Host.absf main_arg10
  let main_cst_16 : FVec F S_ .f32 := constant S_ .f32 0x7F800000#32
  let main_v45 : FVec F S256x121 .f32 := broadcastInDim S256x121 ![] bcast_S_S256x121 main_cst_16
  let main_v46 : IVec S256x121 1 := cmpf .olt main_v44 main_v45
  let main_c_17 : IVec S_ 1 := constantI S_ 1 1#1
  let main_v47 : IVec S_ 1 := (fun x v => Host.reduce IntOp.andi x v reducesTo_S256x121_S_d0_1 h_S_) main_v46 main_c_17
  let main_v48 : IVec S_ 1 := andi main_v43 main_v47
  let main_v49 : FVec F S121 .f32 := Host.absf main_arg11
  let main_cst_18 : FVec F S_ .f32 := constant S_ .f32 0x7F800000#32
  let main_v50 : FVec F S121 .f32 := broadcastInDim S121 ![] bcast_S_S121 main_cst_18
  fn_part3 (F := F) main_v48 main_v49 main_v50

def fn_part1 {F : FTy → Type} [FloatOps F] (main_arg5 : FVec F S50x256 .f32) (main_arg6 : FVec F S256 .f32) (main_arg7 : FVec F S256x121 .f32) (main_arg8 : FVec F S121 .f32) (main_arg9 : FVec F S256x121 .f32) (main_arg10 : FVec F S256x121 .f32) (main_arg11 : FVec F S121 .f32) (main_v13 : IVec S_ 1) (main_v16 : IVec S50x256 1) : IVec S_ 1 :=
  let main_c_5 : IVec S_ 1 := constantI S_ 1 1#1
  let main_v17 : IVec S_ 1 := (fun x v => Host.reduce IntOp.andi x v reducesTo_S50x256_S_d0_1 h_S_) main_v16 main_c_5
  let main_v18 : IVec S_ 1 := andi main_v13 main_v17
  let main_v19 : FVec F S50x256 .f32 := Host.absf main_arg5
  let main_cst_6 : FVec F S_ .f32 := constant S_ .f32 0x7F800000#32
  let main_v20 : FVec F S50x256 .f32 := broadcastInDim S50x256 ![] bcast_S_S50x256 main_cst_6
  let main_v21 : IVec S50x256 1 := cmpf .olt main_v19 main_v20
  let main_c_7 : IVec S_ 1 := constantI S_ 1 1#1
  let main_v22 : IVec S_ 1 := (fun x v => Host.reduce IntOp.andi x v reducesTo_S50x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x121 .f32 := Host.absf main_arg7
  let main_cst_10 : FVec F S_ .f32 := constant S_ .f32 0x7F800000#32
  let main_v30 : FVec F S256x121 .f32 := broadcastInDim S256x121 ![] bcast_S_S256x121 main_cst_10
  let main_v31 : IVec S256x121 1 := cmpf .olt main_v29 main_v30
  let main_c_11 : IVec S_ 1 := constantI S_ 1 1#1
  let main_v32 : IVec S_ 1 := (fun x v => Host.reduce IntOp.andi x v reducesTo_S256x121_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x50 .f32) (main_arg1 : IVec S2x800000 32) (main_arg2 : FVec F S50x256 .f32) (main_arg3 : FVec F S256 .f32) (main_arg4 : FVec F S50x256 .f32) (main_arg5 : FVec F S50x256 .f32) (main_arg6 : FVec F S256 .f32) (main_arg7 : FVec F S256x121 .f32) (main_arg8 : FVec F S121 .f32) (main_arg9 : FVec F S256x121 .f32) (main_arg10 : FVec F S256x121 .f32) (main_arg11 : FVec F S121 .f32) : IVec S_ 1 :=
  let main_v0 : FVec F S50000x50 .f32 := Host.absf main_arg0
  let main_cst : FVec F S_ .f32 := constant S_ .f32 0x7F800000#32
  let main_v1 : FVec F S50000x50 .f32 := broadcastInDim S50000x50 ![] bcast_S_S50000x50 main_cst
  let main_v2 : IVec S50000x50 1 := cmpf .olt main_v0 main_v1
  let main_c : IVec S_ 1 := constantI S_ 1 1#1
  let main_v3 : IVec S_ 1 := (fun x v => Host.reduce IntOp.andi x v reducesTo_S50000x50_S_d0_1 h_S_) main_v2 main_c
  let main_v4 : FVec F S50x256 .f32 := Host.absf main_arg2
  let main_cst_0 : FVec F S_ .f32 := constant S_ .f32 0x7F800000#32
  let main_v5 : FVec F S50x256 .f32 := broadcastInDim S50x256 ![] bcast_S_S50x256 main_cst_0
  let main_v6 : IVec S50x256 1 := cmpf .olt main_v4 main_v5
  let main_c_1 : IVec S_ 1 := constantI S_ 1 1#1
  let main_v7 : IVec S_ 1 := (fun x v => Host.reduce IntOp.andi x v reducesTo_S50x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S50x256 .f32 := Host.absf main_arg4
  let main_cst_4 : FVec F S_ .f32 := constant S_ .f32 0x7F800000#32
  let main_v15 : FVec F S50x256 .f32 := broadcastInDim S50x256 ![] bcast_S_S50x256 main_cst_4
  let main_v16 : IVec S50x256 1 := cmpf .olt main_v14 main_v15
  fn_part1 (F := F) main_arg5 main_arg6 main_arg7 main_arg8 main_arg9 main_arg10 main_arg11 main_v13 main_v16
-- ==== Kernel.lean ====
abbrev S50000x50 : Shape := ⟨2, ![50000, 50]⟩
abbrev S2x800000 : Shape := ⟨2, ![2, 800000]⟩
abbrev S50x256 : Shape := ⟨2, ![50, 256]⟩
abbrev S256 : Shape := ⟨1, ![256]⟩
abbrev S256x121 : Shape := ⟨2, ![256, 121]⟩
abbrev S121 : Shape := ⟨1, ![121]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x50 : Shape := ⟨2, ![800000, 50]⟩
abbrev S50000x1 : Shape := ⟨2, ![50000, 1]⟩
abbrev S1x256 : Shape := ⟨2, ![1, 256]⟩
abbrev S50000x256 : Shape := ⟨2, ![50000, 256]⟩
abbrev S2000x50 : Shape := ⟨2, ![2000, 50]⟩
abbrev S2000x256 : Shape := ⟨2, ![2000, 256]⟩
abbrev S2000 : Shape := ⟨1, ![2000]⟩
abbrev S2000x1 : Shape := ⟨2, ![2000, 1]⟩
abbrev S800000x256 : Shape := ⟨2, ![800000, 256]⟩
abbrev S1x121 : Shape := ⟨2, ![1, 121]⟩
abbrev S50000x121 : Shape := ⟨2, ![50000, 121]⟩
abbrev S2000x121 : Shape := ⟨2, ![2000, 121]⟩

abbrev nBuf : Space → Nat
  | .hbm => 70
  | .vmem => 22
  | .smem => 0
  | _ => 0

abbrev bufTy : (tb : Table) → Fin (tcTables nBuf tb) → BufTy
  | .hbm, ⟨0, _⟩ => ⟨S50000x50, .f32⟩
  | .hbm, ⟨1, _⟩ => ⟨S2x800000, .i32⟩
  | .hbm, ⟨2, _⟩ => ⟨S50x256, .f32⟩
  | .hbm, ⟨3, _⟩ => ⟨S256, .f32⟩
  | .hbm, ⟨4, _⟩ => ⟨S50x256, .f32⟩
  | .hbm, ⟨5, _⟩ => ⟨S50x256, .f32⟩
  | .hbm, ⟨6, _⟩ => ⟨S256, .f32⟩
  | .hbm, ⟨7, _⟩ => ⟨S256x121, .f32⟩
  | .hbm, ⟨8, _⟩ => ⟨S121, .f32⟩
  | .hbm, ⟨9, _⟩ => ⟨S256x121, .f32⟩
  | .hbm, ⟨10, _⟩ => ⟨S256x121, .f32⟩
  | .hbm, ⟨11, _⟩ => ⟨S121, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x50, .f32⟩
  | .hbm, ⟨25, _⟩ => ⟨S_, .f32⟩
  | .hbm, ⟨26, _⟩ => ⟨S50000x50, .f32⟩
  | .hbm, ⟨27, _⟩ => ⟨S800000x1, .i32⟩
  | .hbm, ⟨28, _⟩ => ⟨S50000x50, .f32⟩
  | .hbm, ⟨29, _⟩ => ⟨S_, .f32⟩
  | .hbm, ⟨30, _⟩ => ⟨S800000x1, .f32⟩
  | .hbm, ⟨31, _⟩ => ⟨S_, .f32⟩
  | .hbm, ⟨32, _⟩ => ⟨S50000x1, .f32⟩
  | .hbm, ⟨33, _⟩ => ⟨S800000x1, .i32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x50, .f32⟩
  | .hbm, ⟨39, _⟩ => ⟨S50000x50, .f32⟩
  | .hbm, ⟨40, _⟩ => ⟨S1x256, .f32⟩
  | .hbm, ⟨41, _⟩ => ⟨S1x256, .f32⟩
  | .hbm, ⟨42, _⟩ => ⟨S50000x256, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S_, .f32⟩
  | .hbm, ⟨57, _⟩ => ⟨S800000x1, .f32⟩
  | .hbm, ⟨58, _⟩ => ⟨S_, .f32⟩
  | .hbm, ⟨59, _⟩ => ⟨S50000x1, .f32⟩
  | .hbm, ⟨60, _⟩ => ⟨S800000x1, .i32⟩
  | .hbm, ⟨61, _⟩ => ⟨S50000x1, .f32⟩
  | .hbm, ⟨62, _⟩ => ⟨S_, .f32⟩
  | .hbm, ⟨63, _⟩ => ⟨S50000x1, .f32⟩
  | .hbm, ⟨64, _⟩ => ⟨S50000x1, .f32⟩
  | .hbm, ⟨65, _⟩ => ⟨S50000x256, .f32⟩
  | .hbm, ⟨66, _⟩ => ⟨S50000x256, .f32⟩
  | .hbm, ⟨67, _⟩ => ⟨S1x121, .f32⟩
  | .hbm, ⟨68, _⟩ => ⟨S1x121, .f32⟩
  | .hbm, ⟨69, _⟩ => ⟨S50000x121, .f32⟩
  | .local _ .vmem, ⟨0, _⟩ => ⟨S2000x50, .f32⟩
  | .local _ .vmem, ⟨1, _⟩ => ⟨S2000x50, .f32⟩
  | .local _ .vmem, ⟨2, _⟩ => ⟨S2000x50, .f32⟩
  | .local _ .vmem, ⟨3, _⟩ => ⟨S2000x50, .f32⟩
  | .local _ .vmem, ⟨4, _⟩ => ⟨S50x256, .f32⟩
  | .local _ .vmem, ⟨5, _⟩ => ⟨S1x256, .f32⟩
  | .local _ .vmem, ⟨6, _⟩ => ⟨S50x256, .f32⟩
  | .local _ .vmem, ⟨7, _⟩ => ⟨S50x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S256x121, .f32⟩
  | .local _ .vmem, ⟨16, _⟩ => ⟨S1x121, .f32⟩
  | .local _ .vmem, ⟨17, _⟩ => ⟨S256x121, .f32⟩
  | .local _ .vmem, ⟨18, _⟩ => ⟨S256x121, .f32⟩
  | .local _ .vmem, ⟨19, _⟩ => ⟨S1x121, .f32⟩
  | .local _ .vmem, ⟨20, _⟩ => ⟨S2000x121, .f32⟩
  | .local _ .vmem, ⟨21, _⟩ => ⟨S2000x121, .f32⟩
  | _, _ => ⟨S50000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S50x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x121 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x121 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x121 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x121 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x121 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x121 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x50 : S_.BroadcastsInDim S50000x50 (![] : Fin 0 → Fin S50000x50.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x50_0_1 : S50000x1.BroadcastsInDim S50000x50 (![0, 1] : Fin 2 → Fin S50000x50.rank)
  shapeCasts_S256_S1x256 : S256.ShapeCasts S1x256
  inb_S2000x50_S2000x50_0_0 : ∀ a, (![0, 0] : Fin 2 → Nat) a + S2000x50.size a ≤ S2000x50.size a
  h_S2000x50 : 0 < S2000x50.numel
  shapeCasts_S2000x50_S2000x50 : S2000x50.ShapeCasts S2000x50
  bitsLt_bf16_f32 : FTy.bits .bf16 < FTy.bits .f32
  inb_S50x256_S50x256_0_0 : ∀ a, (![0, 0] : Fin 2 → Nat) a + S50x256.size a ≤ S50x256.size a
  h_S50x256 : 0 < S50x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S121_S1x121 : S121.ShapeCasts S1x121
  shapeCasts_S2000x256_S2000x256 : S2000x256.ShapeCasts S2000x256
  inb_S256x121_S256x121_0_0 : ∀ a, (![0, 0] : Fin 2 → Nat) a + S256x121.size a ≤ S256x121.size a
  h_S256x121 : 0 < S256x121.numel
  inb_S1x121_S1x121_0_0 : ∀ a, (![0, 0] : Fin 2 → Nat) a + S1x121.size a ≤ S1x121.size a
  h_S1x121 : 0 < S1x121.numel
  shapeCasts_S1x121_S1x121 : S1x121.ShapeCasts S1x121
  broadcasts_S1x121_S2000x121 : S1x121.Broadcasts S2000x121
  reduces_S2000x121_S2000 : S2000x121.Reduces [1] S2000
  broadcasts_S2000x1_S2000x121 : S2000x1.Broadcasts S2000x121
  inb_S2000x121_S2000x121_0_0 : ∀ a, (![0, 0] : Fin 2 → Nat) a + S2000x121.size a ≤ S2000x121.size a
  h_S2000x121 : 0 < S2000x121.numel
  gather_S50000x50_S800000x1_S800000x50_1_0_n_n_0_1_150_wf : GatherDims.WF S50000x50 S800000x1 S800000x50 [1] [0] [] [0] [] 1 ![1, 50]
  scatter_S50000x50_S800000x1_S800000x50_1_0_0_1_wf : ScatterDims.WF S50000x50 S800000x1 S800000x50 [1] [0] [0] 1
  scatter_S50000x1_S800000x1_S800000x1_1_0_0_1_wf : ScatterDims.WF S50000x1 S800000x1 S800000x1 [1] [0] [0] 1
  dot_S2000x50_S50x256_S2000x256_1_0_0_1_n_n_wf : DotDims.WF S2000x50 S50x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x121_S2000x121_1_0_0_1_n_n_wf : DotDims.WF S2000x256 S256x121 S2000x121 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x50.size a ≤ S50000x50.size a
  hwx0_0 : ∀ i : grid0.Coords, EltTy.bits .f32 = 32 ∨ (Rect.block (s := S50000x50) S2000x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x50.size a ≤ S50000x50.size a
  hwx0_1 : ∀ i : grid0.Coords, EltTy.bits .f32 = 32 ∨ (Rect.block (s := S50000x50) S2000x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x256.size a ≤ S50x256.size a
  hwx0_2 : ∀ i : grid0.Coords, EltTy.bits .f32 = 32 ∨ (Rect.block (s := S50x256) S50x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x256.size a ≤ S50x256.size a
  hwx0_4 : ∀ i : grid0.Coords, EltTy.bits .f32 = 32 ∨ (Rect.block (s := S50x256) S50x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S50x256.size a ≤ S50x256.size a
  hwx0_5 : ∀ i : grid0.Coords, EltTy.bits .f32 = 32 ∨ (Rect.block (s := S50x256) S50x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x121.size a ≤ S256x121.size a
  hwx1_2 : ∀ i : grid1.Coords, EltTy.bits .f32 = 32 ∨ (Rect.block (s := S256x121) S256x121.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x121.size a ≤ S1x121.size a
  hwx1_3 : ∀ i : grid1.Coords, EltTy.bits .f32 = 32 ∨ (Rect.block (s := S1x121) S1x121.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x121.size a ≤ S256x121.size a
  hwx1_4 : ∀ i : grid1.Coords, EltTy.bits .f32 = 32 ∨ (Rect.block (s := S256x121) S256x121.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x121.size a ≤ S256x121.size a
  hwx1_5 : ∀ i : grid1.Coords, EltTy.bits .f32 = 32 ∨ (Rect.block (s := S256x121) S256x121.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x121.size a ≤ S1x121.size a
  hwx1_6 : ∀ i : grid1.Coords, EltTy.bits .f32 = 32 ∨ (Rect.block (s := S1x121) S1x121.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x121.size a ≤ S50000x121.size a
  hwx1_7 : ∀ i : grid1.Coords, EltTy.bits .f32 = 32 ∨ (Rect.block (s := S50000x121) S2000x121.size (cc1_transform_7 i) (hinb1_7 i)).WholeWords (EltTy.packing .f32)

variable [Facts₀]

def gather_S50000x50_S800000x1_S800000x50_1_0_n_n_0_1_150 : GatherDims S50000x50 S800000x1 S800000x50 where
  offsetDims := [1]
  collapsedSliceDims := [0]
  operandBatchingDims := []
  startIndicesBatchingDims := []
  startIndexMap := [0]
  indexVectorDim := 1
  sliceSizes := ![1, 50]
  wf := gather_S50000x50_S800000x1_S800000x50_1_0_n_n_0_1_150_wf
def scatter_S50000x50_S800000x1_S800000x50_1_0_0_1 : ScatterDims S50000x50 S800000x1 S800000x50 where
  updateWindowDims := [1]
  insertedWindowDims := [0]
  scatterDimsToOperandDims := [0]
  indexVectorDim := 1
  wf := scatter_S50000x50_S800000x1_S800000x50_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S2000x50_S50x256_S2000x256_1_0_0_1_n_n : DotDims S2000x50 S50x256 S2000x256 where
  lhsContracting := [1]
  rhsContracting := [0]
  lhsNonContracting := [0]
  rhsNonContracting := [1]
  lhsBatch := []
  rhsBatch := []
  wf := dot_S2000x50_S50x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x121_S2000x121_1_0_0_1_n_n : DotDims S2000x256 S256x121 S2000x121 where
  lhsContracting := [1]
  rhsContracting := [0]
  lhsNonContracting := [0]
  rhsNonContracting := [1]
  lhsBatch := []
  rhsBatch := []
  wf := dot_S2000x256_S256x121_S2000x121_1_0_0_1_n_n_wf

abbrev win0_0 : Pipeline.Window sig grid0 :=
  Pipeline.Window.ofSpec (Memref.whole main_v21) S2000x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S50x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S50x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S50x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v42) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x121.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x121.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x121.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S256x121.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x121.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S2000x121.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x50 : Shape := ⟨2, ![50000, 50]⟩
abbrev S2x800000 : Shape := ⟨2, ![2, 800000]⟩
abbrev S50x256 : Shape := ⟨2, ![50, 256]⟩
abbrev S256 : Shape := ⟨1, ![256]⟩
abbrev S256x121 : Shape := ⟨2, ![256, 121]⟩
abbrev S121 : Shape := ⟨1, ![121]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x50 : Shape := ⟨2, ![800000, 50]⟩
abbrev S50000x1 : Shape := ⟨2, ![50000, 1]⟩
abbrev S50000x256 : Shape := ⟨2, ![50000, 256]⟩
abbrev S1x256 : Shape := ⟨2, ![1, 256]⟩
abbrev S50000 : Shape := ⟨1, ![50000]⟩
abbrev S800000x256 : Shape := ⟨2, ![800000, 256]⟩
abbrev S50000x121 : Shape := ⟨2, ![50000, 121]⟩
abbrev S1x121 : Shape := ⟨2, ![1, 121]⟩

abbrev nBuf : Space → Nat
  | .hbm => 121
  | .vmem => 0
  | .smem => 0
  | _ => 0

abbrev bufTy : (tb : Table) → Fin (tcTables nBuf tb) → BufTy
  | .hbm, ⟨0, _⟩ => ⟨S50000x50, .f32⟩
  | .hbm, ⟨1, _⟩ => ⟨S2x800000, .i32⟩
  | .hbm, ⟨2, _⟩ => ⟨S50x256, .f32⟩
  | .hbm, ⟨3, _⟩ => ⟨S256, .f32⟩
  | .hbm, ⟨4, _⟩ => ⟨S50x256, .f32⟩
  | .hbm, ⟨5, _⟩ => ⟨S50x256, .f32⟩
  | .hbm, ⟨6, _⟩ => ⟨S256, .f32⟩
  | .hbm, ⟨7, _⟩ => ⟨S256x121, .f32⟩
  | .hbm, ⟨8, _⟩ => ⟨S121, .f32⟩
  | .hbm, ⟨9, _⟩ => ⟨S256x121, .f32⟩
  | .hbm, ⟨10, _⟩ => ⟨S256x121, .f32⟩
  | .hbm, ⟨11, _⟩ => ⟨S121, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x50, .f32⟩
  | .hbm, ⟨25, _⟩ => ⟨S_, .f32⟩
  | .hbm, ⟨26, _⟩ => ⟨S50000x50, .f32⟩
  | .hbm, ⟨27, _⟩ => ⟨S800000x1, .i32⟩
  | .hbm, ⟨28, _⟩ => ⟨S50000x50, .f32⟩
  | .hbm, ⟨29, _⟩ => ⟨S_, .f32⟩
  | .hbm, ⟨30, _⟩ => ⟨S800000x1, .f32⟩
  | .hbm, ⟨31, _⟩ => ⟨S_, .f32⟩
  | .hbm, ⟨32, _⟩ => ⟨S50000x1, .f32⟩
  | .hbm, ⟨33, _⟩ => ⟨S800000x1, .i32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x50, .f32⟩
  | .hbm, ⟨39, _⟩ => ⟨S50000x50, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S_, .f32⟩
  | .hbm, ⟨48, _⟩ => ⟨S50000, .f32⟩
  | .hbm, ⟨49, _⟩ => ⟨S50000x1, .f32⟩
  | .hbm, ⟨50, _⟩ => ⟨S50000x1, .f32⟩
  | .hbm, ⟨51, _⟩ => ⟨S_, .f32⟩
  | .hbm, ⟨52, _⟩ => ⟨S50000x1, .f32⟩
  | .hbm, ⟨53, _⟩ => ⟨S50000x1, .f32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S_, .f32⟩
  | .hbm, ⟨62, _⟩ => ⟨S50000x256, .f32⟩
  | .hbm, ⟨63, _⟩ => ⟨S50000x256, .i1⟩
  | .hbm, ⟨64, _⟩ => ⟨S_, .f32⟩
  | .hbm, ⟨65, _⟩ => ⟨S50000x256, .f32⟩
  | .hbm, ⟨66, _⟩ => ⟨S50000x256, .i1⟩
  | .hbm, ⟨67, _⟩ => ⟨S_, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S_, .f32⟩
  | .hbm, ⟨73, _⟩ => ⟨S50000x256, .f32⟩
  | .hbm, ⟨74, _⟩ => ⟨S50000x256, .f32⟩
  | .hbm, ⟨75, _⟩ => ⟨S50000x256, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x256, .f32⟩
  | .hbm, ⟨85, _⟩ => ⟨S_, .f32⟩
  | .hbm, ⟨86, _⟩ => ⟨S50000x256, .f32⟩
  | .hbm, ⟨87, _⟩ => ⟨S800000x1, .i32⟩
  | .hbm, ⟨88, _⟩ => ⟨S50000x256, .f32⟩
  | .hbm, ⟨89, _⟩ => ⟨S_, .f32⟩
  | .hbm, ⟨90, _⟩ => ⟨S800000x1, .f32⟩
  | .hbm, ⟨91, _⟩ => ⟨S_, .f32⟩
  | .hbm, ⟨92, _⟩ => ⟨S50000x1, .f32⟩
  | .hbm, ⟨93, _⟩ => ⟨S800000x1, .i32⟩
  | .hbm, ⟨94, _⟩ => ⟨S50000x1, .f32⟩
  | .hbm, ⟨95, _⟩ => ⟨S_, .f32⟩
  | .hbm, ⟨96, _⟩ => ⟨S50000x1, .f32⟩
  | .hbm, ⟨97, _⟩ => ⟨S50000x1, .f32⟩
  | .hbm, ⟨98, _⟩ => ⟨S50000x256, .f32⟩
  | .hbm, ⟨99, _⟩ => ⟨S50000x256, .f32⟩
  | .hbm, ⟨100, _⟩ => ⟨S50000x121, .f32⟩
  | .hbm, ⟨101, _⟩ => ⟨S1x121, .f32⟩
  | .hbm, ⟨102, _⟩ => ⟨S50000x121, .f32⟩
  | .hbm, ⟨103, _⟩ => ⟨S50000x121, .f32⟩
  | .hbm, ⟨104, _⟩ => ⟨S50000x121, .f32⟩
  | .hbm, ⟨105, _⟩ => ⟨S50000x121, .f32⟩
  | .hbm, ⟨106, _⟩ => ⟨S50000x121, .f32⟩
  | .hbm, ⟨107, _⟩ => ⟨S_, .f32⟩
  | .hbm, ⟨108, _⟩ => ⟨S50000, .f32⟩
  | .hbm, ⟨109, _⟩ => ⟨S50000x1, .f32⟩
  | .hbm, ⟨110, _⟩ => ⟨S50000x1, .f32⟩
  | .hbm, ⟨111, _⟩ => ⟨S_, .f32⟩
  | .hbm, ⟨112, _⟩ => ⟨S50000x1, .f32⟩
  | .hbm, ⟨113, _⟩ => ⟨S50000x1, .f32⟩
  | .hbm, ⟨114, _⟩ => ⟨S50000x121, .f32⟩
  | .hbm, ⟨115, _⟩ => ⟨S50000x121, .f32⟩
  | .hbm, ⟨116, _⟩ => ⟨S50000x121, .f32⟩
  | .hbm, ⟨117, _⟩ => ⟨S1x121, .f32⟩
  | .hbm, ⟨118, _⟩ => ⟨S50000x121, .f32⟩
  | .hbm, ⟨119, _⟩ => ⟨S50000x121, .f32⟩
  | .hbm, ⟨120, _⟩ => ⟨S50000x121, .f32⟩
  | _, _ => ⟨S50000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_cst_0 : Ref sig .tc := ⟨.hbm, 64, rfl⟩
abbrev main_call0_v2 : Ref sig .tc := ⟨.hbm, 65, rfl⟩
abbrev main_call0_v3 : Ref sig .tc := ⟨.hbm, 66, rfl⟩
abbrev main_call0_cst_1 : Ref sig .tc := ⟨.hbm, 67, rfl⟩
abbrev main_call0_call0_v0 : Ref sig .tc := ⟨.hbm, 68, rfl⟩
abbrev main_call0_call0_v1 : Ref sig .tc := ⟨.hbm, 69, rfl⟩
abbrev main_call0_v4 : Ref sig .tc := ⟨.hbm, 70, rfl⟩
abbrev main_call0_v5 : Ref sig .tc := ⟨.hbm, 71, rfl⟩
abbrev main_call0_cst_2 : Ref sig .tc := ⟨.hbm, 72, rfl⟩
abbrev main_call0_v6 : Ref sig .tc := ⟨.hbm, 73, rfl⟩
abbrev main_call0_v7 : Ref sig .tc := ⟨.hbm, 74, rfl⟩
abbrev main_v41 : Ref sig .tc := ⟨.hbm, 75, rfl⟩
abbrev main_c_6 : Ref sig .tc := ⟨.hbm, 76, rfl⟩
abbrev main_v42 : Ref sig .tc := ⟨.hbm, 77, rfl⟩
abbrev main_v43 : Ref sig .tc := ⟨.hbm, 78, rfl⟩
abbrev main_c_7 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_8 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_9 : Ref sig .tc := ⟨.hbm, 89, rfl⟩
abbrev main_v52 : Ref sig .tc := ⟨.hbm, 90, rfl⟩
abbrev main_cst_10 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_11 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_12 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_13 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x50 : S_.BroadcastsInDim S50000x50 (![] : Fin 0 → Fin S50000x50.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x50_0_1 : S50000x1.BroadcastsInDim S50000x50 (![0, 1] : Fin 2 → Fin S50000x50.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S121_S1x121_1 : S121.BroadcastsInDim S1x121 (![1] : Fin 1 → Fin S1x121.rank)
  bcast_S1x121_S50000x121_0_1 : S1x121.BroadcastsInDim S50000x121 (![0, 1] : Fin 2 → Fin S50000x121.rank)
  reducesTo_S50000x121_S50000_d1 : S50000x121.ReducesTo [1] S50000
  bcast_S50000x1_S50000x121_0_1 : S50000x1.BroadcastsInDim S50000x121 (![0, 1] : Fin 2 → Fin S50000x121.rank)
  gather_S50000x50_S800000x1_S800000x50_1_0_n_n_0_1_150_wf : GatherDims.WF S50000x50 S800000x1 S800000x50 [1] [0] [] [0] [] 1 ![1, 50]
  scatter_S50000x50_S800000x1_S800000x50_1_0_0_1_wf : ScatterDims.WF S50000x50 S800000x1 S800000x50 [1] [0] [0] 1
  scatter_S50000x1_S800000x1_S800000x1_1_0_0_1_wf : ScatterDims.WF S50000x1 S800000x1 S800000x1 [1] [0] [0] 1
  dot_S50000x50_S50x256_S50000x256_1_0_0_1_n_n_wf : DotDims.WF S50000x50 S50x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x121_S50000x121_1_0_0_1_n_n_wf : DotDims.WF S50000x256 S256x121 S50000x121 [1] [0] [0] [1] [] []

variable [Facts₀]

def gather_S50000x50_S800000x1_S800000x50_1_0_n_n_0_1_150 : GatherDims S50000x50 S800000x1 S800000x50 where
  offsetDims := [1]
  collapsedSliceDims := [0]
  operandBatchingDims := []
  startIndicesBatchingDims := []
  startIndexMap := [0]
  indexVectorDim := 1
  sliceSizes := ![1, 50]
  wf := gather_S50000x50_S800000x1_S800000x50_1_0_n_n_0_1_150_wf
def scatter_S50000x50_S800000x1_S800000x50_1_0_0_1 : ScatterDims S50000x50 S800000x1 S800000x50 where
  updateWindowDims := [1]
  insertedWindowDims := [0]
  scatterDimsToOperandDims := [0]
  indexVectorDim := 1
  wf := scatter_S50000x50_S800000x1_S800000x50_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x50_S50x256_S50000x256_1_0_0_1_n_n : DotDims S50000x50 S50x256 S50000x256 where
  lhsContracting := [1]
  rhsContracting := [0]
  lhsNonContracting := [0]
  rhsNonContracting := [1]
  lhsBatch := []
  rhsBatch := []
  wf := dot_S50000x50_S50x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x121_S50000x121_1_0_0_1_n_n : DotDims S50000x256 S256x121 S50000x121 where
  lhsContracting := [1]
  rhsContracting := [0]
  lhsNonContracting := [0]
  rhsNonContracting := [1]
  lhsBatch := []
  rhsBatch := []
  wf := dot_S50000x256_S256x121_S50000x121_1_0_0_1_n_n_wf

class Facts : Prop extends Facts₀ where

variable [Facts]
-- ==== Proof.Spec.lean ====
/-
  The mathematics both programs compute, one node (one row) at a time, on the extended reals.

  A GraphSAGE layer with mean aggregation, L2 row normalisation and a parallel linear branch: for a node with
  aggregated neighbour features `mr` and own features `xr`,
    pre j    = (Σ_k mr k · Wl k j) + b j + Σ_k xr k · Wr k j
    normed j = pre j / max (sqrt (Σ_n pre n · pre n)) ε
    lin j    = (Σ_k xr k · Wp k j) + bp j
  and the layer's row is `normed j + lin j` (second layer), or its ELU (first layer), the ELU being the identity
  above zero and `exp p - 1` elsewhere.  Nothing here mentions a program: the two sides are each shown to be these
  functions of their rows.
-/
import Idealize.ShloMosaic.PureOps.Ideal
import Idealize.ShloMosaic.PureOps.Ideal.Laws
import Idealize.ShloMosaic.Lib.ValueIdx

noncomputable section

namespace Cert.Sage

open Idealize.ShloMosaic

/-- The floor under the row norm: the f32 nearest to 1e-12, the same word in both programs. -/
def eps : EReal := Ideal.ofBits .f32 0x2B8CBCCC#32

/-- The SAGE pre-activation of one node at output feature `j`: aggregated features through `Wl`, the bias, own features
    through `Wr`, summed in this order. -/
def pre {K N : ℕ} (mr xr : Fin K → EReal) (Wl : Fin K → Fin N → EReal) (b : Fin N → EReal) (Wr : Fin K → Fin N → EReal)
    (j : Fin N) : EReal :=
  (∑ k, mr k * Wl k j) + b j + ∑ k, xr k * Wr k j

/-- The squared length of the node's pre-activation row. -/
def sumsq {K N : ℕ} (mr xr : Fin K → EReal) (Wl : Fin K → Fin N → EReal) (b : Fin N → EReal) (Wr : Fin K → Fin N → EReal) : EReal :=
  ∑ n, pre mr xr Wl b Wr n * pre mr xr Wl b Wr n

/-- The pre-activation divided by the row's length, the length floored at `eps`. -/
def normed {K N : ℕ} (mr xr : Fin K → EReal) (Wl : Fin K → Fin N → EReal) (b : Fin N → EReal) (Wr : Fin K → Fin N → EReal)
    (j : Fin N) : EReal :=
  Ideal.div (pre mr xr Wl b Wr j) (max (Ideal.sqrt (sumsq mr xr Wl b Wr)) eps)

/-- The parallel linear branch of the node. -/
def lin {K N : ℕ} (xr : Fin K → EReal) (Wp : Fin K → Fin N → EReal) (bp : Fin N → EReal) (j : Fin N) : EReal :=
  (∑ k, xr k * Wp k j) + bp j

/-- A layer's row before any activation: the normalised SAGE output plus the linear branch. -/
def rowOut {K N : ℕ} (mr xr : Fin K → EReal) (Wl : Fin K → Fin N → EReal) (b : Fin N → EReal) (Wr Wp : Fin K → Fin N → EReal)
    (bp : Fin N → EReal) (j : Fin N) : EReal :=
  normed mr xr Wl b Wr j + lin xr Wp bp j

/-- ELU with unit slope: `p` above zero, `exp p - 1` elsewhere. -/
def elu (p : EReal) : EReal := Scalar.select (Ideal.cmp .ogt p 0) p (Ideal.exp p - 1)

/-- The first layer's row: the ELU of `rowOut`. -/
def rowElu {K N : ℕ} (mr xr : Fin K → EReal) (Wl : Fin K → Fin N → EReal) (b : Fin N → EReal) (Wr Wp : Fin K → Fin N → EReal)
    (bp : Fin N → EReal) (j : Fin N) : EReal :=
  elu (rowOut mr xr Wl b Wr Wp bp j)

/-- The other spelling of the ELU, `1 · (exp (if p > 0 then 0 else p) - 1)` on the branch kept where `p` is not above
    zero: there the inner choice is `p`, and the unit factor drops. -/
theorem elu_of_expm1 (p : EReal) (one zero : EReal) (h1 : one = 1) (h0 : zero = 0) :
    Scalar.select (Ideal.cmp .ogt p zero) p (one * (Ideal.exp (Scalar.select (Ideal.cmp .ogt p zero) zero p) - 1)) = elu p := by
  subst h1 h0
  unfold elu
  rcases BitVec.eq_zero_or_eq_one (Ideal.cmp .ogt p 0) with h | h
  · rw [h, ValueIdx.select_zero, ValueIdx.select_zero, ValueIdx.select_zero, one_mul]
  · rw [h, ValueIdx.select_one, ValueIdx.select_one]

end Cert.Sage

end
-- ==== Proof.KBody1.lean ====
/-
  The first layer's kernel body at one entry of its block.

  The body's one store is a pure function of the seven blocks it loads.  Read at row `p`, column `q` of the
  2000 × 256 block it is `Sage.rowElu` of row `p` of the two 2000 × 50 input blocks, the three weight matrices and the
  two bias rows: each of the three matrix products into a zero accumulator is the plain sum over the 50 contracted
  coordinates, the lane sum of the squares is the plain sum over the 256 columns, a change of float format is the
  identity, and the layout operations (a bias row broadcast down the block, the row sums put back as a column and broadcast
  across it) only re-index.
-/
import proofs.«160058_j62663572848802_1_alg».proof.Proof.Gen.KernelIdeal.Skeleton
import proofs.«160058_j62663572848802_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body1

open Cert.KernelIdeal Cert.KernelIdeal.Gen Idealize.ShloMosaic Idealize.ShloMosaic.ValueIdx

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index keeps the output row on axis 0. -/
theorem lhs_axis0 (j : S2000x256.Idx) (k : dot_S2000x50_S50x256_S2000x256_1_0_0_1_n_n.contr.Idx) :
    (dot_S2000x50_S50x256_S2000x256_1_0_0_1_n_n.lhsIdx j k 0).val = (j 0).val := rfl

/-- The left operand's index reads the contraction coordinate on axis 1. -/
theorem lhs_axis1 (j : S2000x256.Idx) (k : dot_S2000x50_S50x256_S2000x256_1_0_0_1_n_n.contr.Idx) :
    (dot_S2000x50_S50x256_S2000x256_1_0_0_1_n_n.lhsIdx j k 1).val = (k ⟨0, by decide⟩).val :=
  dot_S2000x50_S50x256_S2000x256_1_0_0_1_n_n.lhsIdx_val_of_single rfl j k

/-- The right operand's index reads the contraction coordinate on axis 0. -/
theorem rhs_axis0 (j : S2000x256.Idx) (k : dot_S2000x50_S50x256_S2000x256_1_0_0_1_n_n.contr.Idx) :
    (dot_S2000x50_S50x256_S2000x256_1_0_0_1_n_n.rhsIdx j k 0).val = (k ⟨0, by decide⟩).val :=
  dot_S2000x50_S50x256_S2000x256_1_0_0_1_n_n.rhsIdx_val_of_single rfl j k

/-- The right operand's index keeps the output column on axis 1. -/
theorem rhs_axis1 (j : S2000x256.Idx) (k : dot_S2000x50_S50x256_S2000x256_1_0_0_1_n_n.contr.Idx) :
    (dot_S2000x50_S50x256_S2000x256_1_0_0_1_n_n.rhsIdx j k 1).val = (j 1).val := rfl

/-- A matrix product into the zero accumulator, at `(p, q)`: the plain sum over the 50 contracted coordinates. -/
theorem matmul_zero_apply (A : FVec Ideal S2000x50 .bf16) (B : FVec Ideal S50x256 .bf16) (p : Fin 2000) (q : Fin 256) :
    matmul dot_S2000x50_S50x256_S2000x256_1_0_0_1_n_n none A B (constant S2000x256 .f32 0x00000000#32) (ix2 p q)
      = ∑ k : Fin 50, A (ix2 p k) * B (ix2 k q) := by
  refine (Ideal.matmul_constant_zero_apply _ none A B (ix2 p q)).trans ?_
  rw [← Equiv.sum_comp (contrEquiv1 dot_S2000x50_S50x256_S2000x256_1_0_0_1_n_n 50 rfl rfl).symm]
  refine Finset.sum_congr rfl fun k _ => ?_
  have hk := contrEquiv1_symm_val dot_S2000x50_S50x256_S2000x256_1_0_0_1_n_n 50 rfl rfl k
  have hl : dot_S2000x50_S50x256_S2000x256_1_0_0_1_n_n.lhsIdx (ix2 p q)
      ((contrEquiv1 dot_S2000x50_S50x256_S2000x256_1_0_0_1_n_n 50 rfl rfl).symm k) = ix2 p k :=
    Shape.idx_ext₂ (lhs_axis0 _ _) ((lhs_axis1 _ _).trans hk)
  have hr : dot_S2000x50_S50x256_S2000x256_1_0_0_1_n_n.rhsIdx (ix2 p q)
      ((contrEquiv1 dot_S2000x50_S50x256_S2000x256_1_0_0_1_n_n 50 rfl rfl).symm k) = ix2 k q :=
    Shape.idx_ext₂ ((rhs_axis0 _ _).trans hk) (rhs_axis1 _ _)
  rw [hl, hr]

/-- The lane sum of a 2000 × 256 block, at row `p`: the plain sum over the 256 columns. -/
theorem laneSum_apply (v : FVec Ideal S2000x256 .f32) (h : S2000x256.Reduces [1] S2000) (hφ : FKind.Formats .f32)
    (hacc : (0x00000000#32 : BitVec 32) = FKind.add.neutral .f32 hφ) (p : Fin 2000) :
    multiReduction .add [1] S2000 v 0x00000000#32 h hφ hacc (ix1 p) = ∑ n : Fin 256, v (ix2 p n) := by
  refine (Ideal.multiReduction_add_single v _ h hφ hacc (ix1 p)).trans ?_
  exact Finset.sum_congr rfl fun n _ => congrArg v (Shape.idx_ext₂ rfl rfl)

/-- The word of the f32 one is the extended real `1`. -/
theorem oneWord_eq : Ideal.ofBits .f32 0x3F800000#32 = 1 := IdealRules.sign_bit.ideal_onePat .f32

/-- Two products into zero accumulators with a bias row broadcast down the block between them, at `(p, q)`:
    the sum through the first pair, the bias at `q`, the sum through the second pair, in this order. -/
theorem pre_apply (A1 A2 : FVec Ideal S2000x50 .bf16) (B1 B2 : FVec Ideal S50x256 .bf16) (b : FVec Ideal S1x256 .f32)
    (hb : S1x256.Broadcasts S2000x256) (p : Fin 2000) (q : Fin 256) :
    addf (addf (matmul dot_S2000x50_S50x256_S2000x256_1_0_0_1_n_n none A1 B1 (constant S2000x256 .f32 0x00000000#32))
          (broadcastTo S2000x256 b hb))
        (matmul dot_S2000x50_S50x256_S2000x256_1_0_0_1_n_n none A2 B2 (constant S2000x256 .f32 0x00000000#32)) (ix2 p q)
      = Sage.pre (fun k : Fin 50 => A1 (ix2 p k)) (fun k : Fin 50 => A2 (ix2 p k)) (fun (k : Fin 50) (n : Fin 256) => B1 (ix2 k n))
          (fun n : Fin 256 => b (ix2 (0 : Fin 1) n)) (fun (k : Fin 50) (n : Fin 256) => B2 (ix2 k n)) q := by
  rw [addf_apply, addf_apply, matmul_zero_apply, matmul_zero_apply, broadcastTo_1b_ab_apply]
  rfl

/-- A product into a zero accumulator plus a bias row broadcast down the block, at `(p, q)`. -/
theorem lin_apply (A : FVec Ideal S2000x50 .bf16) (B : FVec Ideal S50x256 .bf16) (b : FVec Ideal S1x256 .f32)
    (hb : S1x256.Broadcasts S2000x256) (p : Fin 2000) (q : Fin 256) :
    addf (matmul dot_S2000x50_S50x256_S2000x256_1_0_0_1_n_n none A B (constant S2000x256 .f32 0x00000000#32))
        (broadcastTo S2000x256 b hb) (ix2 p q)
      = Sage.lin (fun k : Fin 50 => A (ix2 p k)) (fun (k : Fin 50) (n : Fin 256) => B (ix2 k n))
          (fun n : Fin 256 => b (ix2 (0 : Fin 1) n)) q := by
  rw [addf_apply, matmul_zero_apply, broadcastTo_1b_ab_apply]
  rfl

/-- The floored row length, put back as a column and broadcast across the block, at `(p, q)`: the larger of the
    square root of row `p`'s sum of squares and the floor. -/
theorem rowNorm_apply (v : FVec Ideal S2000x256 .f32) (hr : S2000x256.Reduces [1] S2000) (hφ : FKind.Formats .f32)
    (hacc : (0x00000000#32 : BitVec 32) = FKind.add.neutral .f32 hφ) (hsc : S2000.ShapeCasts S2000x1)
    (hb : S2000x1.Broadcasts S2000x256) (p : Fin 2000) (q : Fin 256) :
    broadcastTo S2000x256
        (maximumf (sqrt (shapeCast S2000x1 (multiReduction .add [1] S2000 (mulf v v) 0x00000000#32 hr hφ hacc) hsc))
          (broadcast S2000x1 (Scalar.ofBits .f32 0x2B8CBCCC#32))) hb (ix2 p q)
      = max (Ideal.sqrt (∑ n : Fin 256, v (ix2 p n) * v (ix2 p n))) Sage.eps := by
  rw [broadcastTo_a1_ab_apply, maximumf_apply, broadcast_apply]
  show max (Ideal.sqrt (shapeCast S2000x1 (multiReduction .add [1] S2000 (mulf v v) 0x00000000#32 hr hφ hacc) hsc
    (ix2 p (0 : Fin 1)))) Sage.eps = _
  rw [shapeCast_a_a1_apply, laneSum_apply]
  rfl

/-- The block before the activation, at `(p, q)`: `Sage.rowOut` of row `p` of the operands. -/
theorem rowOut_apply (A1 A2 : FVec Ideal S2000x50 .bf16) (B1 B2 B3 : FVec Ideal S50x256 .bf16) (b1 b2 : FVec Ideal S1x256 .f32)
    (hb : S1x256.Broadcasts S2000x256) (hr : S2000x256.Reduces [1] S2000) (hφ : FKind.Formats .f32)
    (hacc : (0x00000000#32 : BitVec 32) = FKind.add.neutral .f32 hφ) (hsc : S2000.ShapeCasts S2000x1)
    (hbc : S2000x1.Broadcasts S2000x256) (X : FVec Ideal S2000x256 .f32)
    (hX : X = addf (addf (matmul dot_S2000x50_S50x256_S2000x256_1_0_0_1_n_n none A1 B1 (constant S2000x256 .f32 0x00000000#32)) (broadcastTo S2000x256 b1 hb))
        (matmul dot_S2000x50_S50x256_S2000x256_1_0_0_1_n_n none A2 B2 (constant S2000x256 .f32 0x00000000#32)))
    (p : Fin 2000) (q : Fin 256) :
    addf (divf X (broadcastTo S2000x256
            (maximumf (sqrt (shapeCast S2000x1 (multiReduction .add [1] S2000 (mulf X X) 0x00000000#32 hr hφ hacc) hsc))
              (broadcast S2000x1 (Scalar.ofBits .f32 0x2B8CBCCC#32))) hbc))
        (addf (matmul dot_S2000x50_S50x256_S2000x256_1_0_0_1_n_n none A2 B3 (constant S2000x256 .f32 0x00000000#32)) (broadcastTo S2000x256 b2 hb)) (ix2 p q)
      = Sage.rowOut (fun k : Fin 50 => A1 (ix2 p k)) (fun k : Fin 50 => A2 (ix2 p k))
          (fun (k : Fin 50) (n : Fin 256) => B1 (ix2 k n)) (fun n : Fin 256 => b1 (ix2 (0 : Fin 1) n))
          (fun (k : Fin 50) (n : Fin 256) => B2 (ix2 k n)) (fun (k : Fin 50) (n : Fin 256) => B3 (ix2 k n))
          (fun n : Fin 256 => b2 (ix2 (0 : Fin 1) n)) q := by
  have hpre : ∀ n : Fin 256, X (ix2 p n)
      = Sage.pre (fun k : Fin 50 => A1 (ix2 p k)) (fun k : Fin 50 => A2 (ix2 p k)) (fun (k : Fin 50) (n : Fin 256) => B1 (ix2 k n))
          (fun n : Fin 256 => b1 (ix2 (0 : Fin 1) n)) (fun (k : Fin 50) (n : Fin 256) => B2 (ix2 k n)) n :=
    fun n => by rw [hX]; exact pre_apply A1 A2 B1 B2 b1 hb p n
  rw [addf_apply, divf_apply, lin_apply, rowNorm_apply, hpre]
  simp only [hpre]
  rfl

/-- The unit-slope ELU spelled with a compare, an exponential, a subtraction of one and a select, at an index. -/
theorem elu_apply (T : FVec Ideal S2000x256 .f32) (i : S2000x256.Idx) :
    select (cmpf .ogt T (broadcast S2000x256 (Scalar.ofBits .f32 0x00000000#32))) T
        (subf (exp T) (broadcast S2000x256 (Scalar.ofBits .f32 0x3F800000#32))) i = Sage.elu (T i) := by
  show Scalar.select (Ideal.cmp .ogt (T i) (Ideal.ofBits .f32 0x00000000#32)) (T i)
    (Ideal.exp (T i) - Ideal.ofBits .f32 0x3F800000#32) = _
  rw [Ideal.ofBits_zero_f32, oneWord_eq]
  rfl

/-- The payload of the body's store, at row `p` and column `q` of the output block. -/
theorem pay_apply (v0 v3 : Vec Ideal S2000x50 .f32) (v5 v7 v9 : Vec Ideal S50x256 .f32) (v12 v27 : Vec Ideal S1x256 .f32)
    (p : Fin 2000) (q : Fin 256) :
    k0_pay1 (F := Ideal) v0 v3 v5 v7 v9 v12 v27 (ix2 p q)
      = Sage.rowElu (fun k : Fin 50 => v0 (ix2 p k)) (fun k : Fin 50 => v3 (ix2 p k))
          (fun (k : Fin 50) (n : Fin 256) => v5 (ix2 k n)) (fun n : Fin 256 => v12 (ix2 (0 : Fin 1) n))
          (fun (k : Fin 50) (n : Fin 256) => v7 (ix2 k n)) (fun (k : Fin 50) (n : Fin 256) => v9 (ix2 k n))
          (fun n : Fin 256 => v27 (ix2 (0 : Fin 1) n)) q := by
  unfold k0_pay1
  simp only [shapeCast_self]
  refine (elu_apply _ _).trans ?_
  exact congrArg Sage.elu (rowOut_apply _ _ _ _ _ _ _ _ _ _ _ _ _ _ rfl p q)

end Cert.KernelIdeal.Body1

end
-- ==== Proof.KDefs.lean ====
/-
  The neighbourhood mean both layers start from, as one function of a feature array and the two index rows.

  An edge list gives, for edge `e`, a source node `idx0 e` and a destination node `idx1 e`.  The source index is read
  the way array indexing reads it (a negative index counts from the end: `src`).  The rows of the feature array at the
  sources are summed into the destinations (`Host.gather`, then `Host.scatterAdd` into zeros), and each destination's sum
  is divided by the number of edges that reach it, counted the same way from ones and floored at one (`degree`).
  These are the host operations of the program's two stretches, written once; nothing below looks inside a gather or a
  scatter.
-/
import proofs.«160058_j62663572848802_1_alg».proof.Proof.Gen.KernelIdeal

noncomputable section

namespace Cert.KernelIdeal.Agg

open Cert.KernelIdeal Cert.KernelIdeal.Gen Idealize.ShloMosaic

variable {F : FTy → Type} [FloatOps F]

/-- Row 0 of the edge list: each edge's source node, as written. -/
def idx0 (e : IVec S2x800000 32) : IVec S800000 32 := fun i =>
  shapeCast S800000 (extractStridedSlice S1x800000 ![0, 0] e slices_S2x800000_S1x800000_0_0) shapeCasts_S1x800000_S800000 i

/-- Row 1 of the edge list: each edge's destination node. -/
def idx1 (e : IVec S2x800000 32) : IVec S800000 32 := fun i =>
  shapeCast S800000 (extractStridedSlice S1x800000 ![1, 0] e slices_S2x800000_S1x800000_1_0) shapeCasts_S1x800000_S800000 i

/-- The source indices as indexing reads them: below zero, 50000 is added. -/
def src (v1 : IVec S800000 32) : IVec S800000 32 :=
  select (cmpi .slt v1 (broadcastInDim S800000 ![] bcast_S_S800000 (constantI S_ 32 0#32)))
    (addi v1 (broadcastInDim S800000 ![] bcast_S_S800000 (constantI S_ 32 50000#32))) v1

/-- How many edges end at each node, floored at one. -/
def degree (v3 : IVec S800000 32) : FVec F S50000x1 .f32 :=
  maximumf
    (Host.scatterAdd scatter_S50000x1_S800000x1_S800000x1_1_0_0_1
      (broadcastInDim S50000x1 ![] bcast_S_S50000x1 (constant S_ .f32 0x00000000#32))
      (broadcastInDim S800000x1 ![0] bcast_S800000_S800000x1_0 v3)
      (broadcastInDim S800000x1 ![] bcast_S_S800000x1 (constant S_ .f32 0x3F800000#32)))
    (broadcastInDim S50000x1 ![] bcast_S_S50000x1 (constant S_ .f32 0x3F800000#32))

/-- The mean of the 50-feature rows over each node's incoming edges. -/
def mean50 (x : FVec F S50000x50 .f32) (v1 v3 : IVec S800000 32) : FVec F S50000x50 .f32 :=
  Host.divf
    (Host.scatterAdd scatter_S50000x50_S800000x1_S800000x50_1_0_0_1
      (broadcastInDim S50000x50 ![] bcast_S_S50000x50 (constant S_ .f32 0x00000000#32))
      (broadcastInDim S800000x1 ![0] bcast_S800000_S800000x1_0 v3)
      (Host.gather gather_S50000x50_S800000x1_S800000x50_1_0_n_n_0_1_150 x
        (broadcastInDim S800000x1 ![0] bcast_S800000_S800000x1_0 (src v1))))
    (broadcastInDim S50000x50 ![0, 1] bcast_S50000x1_S50000x50_0_1 (degree v3))

/-- The mean of the 256-feature rows over each node's incoming edges. -/
def mean256 (h : FVec F S50000x256 .f32) (v1 v3 : IVec S800000 32) : FVec F S50000x256 .f32 :=
  Host.divf
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 v3)
      (Host.gather gather_S50000x256_S800000x1_S800000x256_1_0_n_n_0_1_1256 h
        (broadcastInDim S800000x1 ![0] bcast_S800000_S800000x1_0 (src v1))))
    (broadcastInDim S50000x256 ![0, 1] bcast_S50000x1_S50000x256_0_1 (degree v3))

end Cert.KernelIdeal.Agg

end
-- ==== Proof.Final.lean ====
/-
  The two dense layers as whole-array functions, and the function of the twelve arguments both programs end at.

  `dense1 M X …` is, at node `r` and feature `j`, the first layer's row `Sage.rowElu` of row `r` of the aggregated
  features `M` and of the node features `X`; `dense2` the second layer's row `Sage.rowOut`.  The network is
  `dense2 (mean of H over the edges) H …` with `H = dense1 (mean of x over the edges) x …`.
-/
import proofs.«160058_j62663572848802_1_alg».proof.Proof.KDefs
import proofs.«160058_j62663572848802_1_alg».proof.Proof.Spec

noncomputable section

namespace Cert.Sage

open Cert.KernelIdeal Idealize.ShloMosaic Idealize.ShloMosaic.ValueIdx

/-- The first layer on every node: row `r` of the result is `rowElu` of rows `r` of `M` and `X`. -/
def dense1 (M X : FVec Ideal S50000x50 .f32) (Wl : FVec Ideal S50x256 .f32) (b : Fin 256 → EReal)
    (Wr Wp : FVec Ideal S50x256 .f32) (bp : Fin 256 → EReal) : FVec Ideal S50000x256 .f32 := fun i =>
  rowElu (fun k : Fin 50 => M (ix2 (i 0) k)) (fun k : Fin 50 => X (ix2 (i 0) k)) (fun (k : Fin 50) (n : Fin 256) => Wl (ix2 k n)) b
    (fun (k : Fin 50) (n : Fin 256) => Wr (ix2 k n)) (fun (k : Fin 50) (n : Fin 256) => Wp (ix2 k n)) bp (i 1)

/-- The second layer on every node: row `r` of the result is `rowOut` of rows `r` of `M` and `H`. -/
def dense2 (M H : FVec Ideal S50000x256 .f32) (Wl : FVec Ideal S256x121 .f32) (b : Fin 121 → EReal)
    (Wr Wp : FVec Ideal S256x121 .f32) (bp : Fin 121 → EReal) : FVec Ideal S50000x121 .f32 := fun i =>
  rowOut (fun k : Fin 256 => M (ix2 (i 0) k)) (fun k : Fin 256 => H (ix2 (i 0) k)) (fun (k : Fin 256) (n : Fin 121) => Wl (ix2 k n)) b
    (fun (k : Fin 256) (n : Fin 121) => Wr (ix2 k n)) (fun (k : Fin 256) (n : Fin 121) => Wp (ix2 k n)) bp (i 1)

/-- The hidden features: the first layer over the mean of the node features along the edges. -/
def hidden (x : FVec Ideal S50000x50 .f32) (e : IVec S2x800000 32) (w1l : FVec Ideal S50x256 .f32) (b1 : FVec Ideal S256 .f32)
    (w1r wl1 : FVec Ideal S50x256 .f32) (bl1 : FVec Ideal S256 .f32) : FVec Ideal S50000x256 .f32 :=
  dense1 (Agg.mean50 x (Agg.idx0 e) (Agg.idx1 e)) x w1l (fun n => b1 (ix1 n)) w1r wl1 (fun n => bl1 (ix1 n))

/-- The network's output: the second layer over the mean of the hidden features along the edges. -/
def network (x : FVec Ideal S50000x50 .f32) (e : IVec S2x800000 32) (w1l : FVec Ideal S50x256 .f32) (b1 : FVec Ideal S256 .f32)
    (w1r wl1 : FVec Ideal S50x256 .f32) (bl1 : FVec Ideal S256 .f32) (w2l : FVec Ideal S256x121 .f32) (b2 : FVec Ideal S121 .f32)
    (w2r wl2 : FVec Ideal S256x121 .f32) (bl2 : FVec Ideal S121 .f32) : FVec Ideal S50000x121 .f32 :=
  dense2 (Agg.mean256 (hidden x e w1l b1 w1r wl1 bl1) (Agg.idx0 e) (Agg.idx1 e)) (hidden x e w1l b1 w1r wl1 bl1) w2l
    (fun n => b2 (ix1 n)) w2r wl2 (fun n => bl2 (ix1 n))

end Cert.Sage

end
-- ==== Proof.KVal1.lean ====
/-
  What the first region leaves in its output array, for any contents `V` the region is entered from.

  Grid point `t` stages rows `2000·t … 2000·t + 1999` of the two row-blocked inputs and all of the five small operands,
  and writes back the body's result as rows `2000·t …` of the output.  By the payload read at an index, that block is block
  `t` of `Sage.dense1` of the whole arrays; the 25 blocks tile the 50000 rows, so the array ends holding that function.
-/
import proofs.«160058_j62663572848802_1_alg».proof.Proof.Gen.KernelIdeal.Frame
import proofs.«160058_j62663572848802_1_alg».proof.Proof.KBody1
import proofs.«160058_j62663572848802_1_alg».proof.Proof.Final
import Idealize.ShloMosaic.Lib.Pipeline.Value

set_option maxRecDepth 16384

noncomputable section

namespace Cert.KernelIdeal.Val1

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offsets of a whole-block access, spelt as the constant function. -/
theorem offsets_zero : (![0, 0] : Fin 2 → Nat) = fun _ => 0 := funext fun a => by fin_cases a <;> rfl

/-- The block indices at every grid point: the two row-blocked inputs and the output are at block row `t`, column 0;
    the five small operands are at block (0, 0). -/
theorem block_indices : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The payload at row `p`, column `q` of a block is the first layer at array index `i`, once each loaded block's
    entries are the arrays' entries that index `i` reads. -/
theorem pay_eq_dense1 (x0 x1 : Vec Ideal S2000x50 .f32) (x2 x4 x5 : Vec Ideal S50x256 .f32) (x3 x6 : Vec Ideal S1x256 .f32)
    (M X : FVec Ideal S50000x50 .f32) (Wl Wr Wp : FVec Ideal S50x256 .f32) (B Bp : FVec Ideal S1x256 .f32)
    (p : Fin 2000) (q : Fin 256) (i : S50000x256.Idx)
    (h0 : ∀ k : Fin 50, x0 (ix2 p k) = M (ix2 (i 0) k)) (h1 : ∀ k : Fin 50, x1 (ix2 p k) = X (ix2 (i 0) k))
    (h2 : ∀ (k : Fin 50) (n : Fin 256), x2 (ix2 k n) = Wl (ix2 k n))
    (h3 : ∀ n : Fin 256, x3 (ix2 (0 : Fin 1) n) = B (ix2 (0 : Fin 1) n))
    (h4 : ∀ (k : Fin 50) (n : Fin 256), x4 (ix2 k n) = Wr (ix2 k n))
    (h5 : ∀ (k : Fin 50) (n : Fin 256), x5 (ix2 k n) = Wp (ix2 k n))
    (h6 : ∀ n : Fin 256, x6 (ix2 (0 : Fin 1) n) = Bp (ix2 (0 : Fin 1) n)) (hq : q = i 1) :
    k0_pay1 (F := Ideal) x0 x1 x2 x4 x5 x3 x6 (ix2 p q)
      = Sage.dense1 M X Wl (fun n => B (ix2 (0 : Fin 1) n)) Wr Wp (fun n => Bp (ix2 (0 : Fin 1) n)) i := by
  rw [Body1.pay_apply]
  unfold Sage.dense1
  simp only [h0, h1, h2, h3, h4, h5, h6, hq]

/-- An entry of point `t`'s row block of the aggregated features is the array's entry `2000·t` rows further down. -/
theorem rows_aggregated (c : Dev nD) (t : Fin cfg0.N) (p : Fin 2000) (k : Fin 50) (r : Fin 50000)
    (hr : r.val = t.val * 2000 + p.val) : iblk0 (F := Ideal) V c 0 t (ix2 p k) = V c main_v21 (ix2 r k) := by
  obtain ⟨-, -, e0, e1, -⟩ := block_indices t
  unfold iblk0
  rw [View.read_apply]
  show V c main_v21 (((cfg0.win 0).blk t).view.emb (ix2 p k)) = V c main_v21 (ix2 r k)
  have h : ((cfg0.win 0).blk t).view.emb (ix2 p k) = ix2 r k := by
    funext a; apply Fin.ext
    match a with
    | ⟨0, _⟩ => show win0_0.index t (0 : Fin 2) * 2000 + 1 * p.val = r.val; omega
    | ⟨1, _⟩ => show win0_0.index t (1 : Fin 2) * 50 + 1 * k.val = k.val; omega
  rw [h]

/-- An entry of point `t`'s row block of the node features is the array's entry `2000·t` rows further down. -/
theorem rows_features (c : Dev nD) (t : Fin cfg0.N) (p : Fin 2000) (k : Fin 50) (r : Fin 50000)
    (hr : r.val = t.val * 2000 + p.val) : iblk0 (F := Ideal) V c 1 t (ix2 p k) = V c main_arg0 (ix2 r k) := by
  obtain ⟨-, -, -, -, e0, e1, -⟩ := block_indices t
  unfold iblk0
  rw [View.read_apply]
  show V c main_arg0 (((cfg0.win 1).blk t).view.emb (ix2 p k)) = V c main_arg0 (ix2 r k)
  have h : ((cfg0.win 1).blk t).view.emb (ix2 p k) = ix2 r k := by
    funext a; apply Fin.ext
    match a with
    | ⟨0, _⟩ => show win0_1.index t (0 : Fin 2) * 2000 + 1 * p.val = r.val; omega
    | ⟨1, _⟩ => show win0_1.index t (1 : Fin 2) * 50 + 1 * k.val = k.val; omega
  rw [h]

/-- The staged block of the weights on the aggregated features is the whole array, at every point. -/
theorem whole_weight_agg (c : Dev nD) (t : Fin cfg0.N) (k : Fin 50) (n : Fin 256) :
    iblk0 (F := Ideal) V c 2 t (ix2 k n) = V c main_arg2 (ix2 k n) := by
  obtain ⟨-, -, -, -, -, -, e20, e21, e30, e31, e40, e41, e50, e51, e60, e61⟩ := block_indices t
  unfold iblk0
  rw [View.read_apply]
  show V c main_arg2 (((cfg0.win 2).blk t).view.emb (ix2 k n)) = V c main_arg2 (ix2 k n)
  have h : ((cfg0.win 2).blk t).view.emb (ix2 k n) = ix2 k n := by
    funext a; apply Fin.ext
    match a with
    | ⟨0, _⟩ => show win0_2.index t (0 : Fin 2) * 50 + 1 * k.val = k.val; omega
    | ⟨1, _⟩ => show win0_2.index t (1 : Fin 2) * 256 + 1 * n.val = n.val; omega
  rw [h]

/-- The staged block of the first bias row is the whole array, at every point. -/
theorem whole_bias (c : Dev nD) (t : Fin cfg0.N) (k : Fin 1) (n : Fin 256) :
    iblk0 (F := Ideal) V c 3 t (ix2 k n) = V c main_v22 (ix2 k n) := by
  obtain ⟨-, -, -, -, -, -, e20, e21, e30, e31, e40, e41, e50, e51, e60, e61⟩ := block_indices t
  unfold iblk0
  rw [View.read_apply]
  show V c main_v22 (((cfg0.win 3).blk t).view.emb (ix2 k n)) = V c main_v22 (ix2 k n)
  have h : ((cfg0.win 3).blk t).view.emb (ix2 k n) = ix2 k n := by
    funext a; apply Fin.ext
    match a with
    | ⟨0, _⟩ => show win0_3.index t (0 : Fin 2) * 1 + 1 * k.val = k.val; omega
    | ⟨1, _⟩ => show win0_3.index t (1 : Fin 2) * 256 + 1 * n.val = n.val; omega
  rw [h]

/-- The staged block of the weights on the node's own features is the whole array, at every point. -/
theorem whole_weight_own (c : Dev nD) (t : Fin cfg0.N) (k : Fin 50) (n : Fin 256) :
    iblk0 (F := Ideal) V c 4 t (ix2 k n) = V c main_arg4 (ix2 k n) := by
  obtain ⟨-, -, -, -, -, -, e20, e21, e30, e31, e40, e41, e50, e51, e60, e61⟩ := block_indices t
  unfold iblk0
  rw [View.read_apply]
  show V c main_arg4 (((cfg0.win 4).blk t).view.emb (ix2 k n)) = V c main_arg4 (ix2 k n)
  have h : ((cfg0.win 4).blk t).view.emb (ix2 k n) = ix2 k n := by
    funext a; apply Fin.ext
    match a with
    | ⟨0, _⟩ => show win0_4.index t (0 : Fin 2) * 50 + 1 * k.val = k.val; omega
    | ⟨1, _⟩ => show win0_4.index t (1 : Fin 2) * 256 + 1 * n.val = n.val; omega
  rw [h]

/-- The staged block of the linear branch's weights is the whole array, at every point. -/
theorem whole_weight_lin (c : Dev nD) (t : Fin cfg0.N) (k : Fin 50) (n : Fin 256) :
    iblk0 (F := Ideal) V c 5 t (ix2 k n) = V c main_arg5 (ix2 k n) := by
  obtain ⟨-, -, -, -, -, -, e20, e21, e30, e31, e40, e41, e50, e51, e60, e61⟩ := block_indices t
  unfold iblk0
  rw [View.read_apply]
  show V c main_arg5 (((cfg0.win 5).blk t).view.emb (ix2 k n)) = V c main_arg5 (ix2 k n)
  have h : ((cfg0.win 5).blk t).view.emb (ix2 k n) = ix2 k n := by
    funext a; apply Fin.ext
    match a with
    | ⟨0, _⟩ => show win0_5.index t (0 : Fin 2) * 50 + 1 * k.val = k.val; omega
    | ⟨1, _⟩ => show win0_5.index t (1 : Fin 2) * 256 + 1 * n.val = n.val; omega
  rw [h]

/-- The staged block of the linear branch's bias row is the whole array, at every point. -/
theorem whole_bias_lin (c : Dev nD) (t : Fin cfg0.N) (k : Fin 1) (n : Fin 256) :
    iblk0 (F := Ideal) V c 6 t (ix2 k n) = V c main_v23 (ix2 k n) := by
  obtain ⟨-, -, -, -, -, -, e20, e21, e30, e31, e40, e41, e50, e51, e60, e61⟩ := block_indices t
  unfold iblk0
  rw [View.read_apply]
  show V c main_v23 (((cfg0.win 6).blk t).view.emb (ix2 k n)) = V c main_v23 (ix2 k n)
  have h : ((cfg0.win 6).blk t).view.emb (ix2 k n) = ix2 k n := by
    funext a; apply Fin.ext
    match a with
    | ⟨0, _⟩ => show win0_6.index t (0 : Fin 2) * 1 + 1 * k.val = k.val; omega
    | ⟨1, _⟩ => show win0_6.index t (1 : Fin 2) * 256 + 1 * n.val = n.val; omega
  rw [h]

/-- What grid point `t` writes back is block `t` of the first layer of the arrays as the region finds them. -/
theorem flushed_eq_dense1 (c : Dev nD) (t : Fin cfg0.N) :
    (dat0 (F := Ideal) V c).flushed 7 t
      = ((cfg0.win 7).blk t).view.read (Elt Ideal)
          (Sage.dense1 (V c main_v21) (V c main_arg0) (V c main_arg2) (fun n => V c main_v22 (ix2 (0 : Fin 1) n))
            (V c main_arg4) (V c main_arg5) (fun n => V c main_v23 (ix2 (0 : Fin 1) n))) := by
  show (cfg0.win 7).cut (grid0.coords t) ((dat0 V c).after 7 t) = _
  rw [after0_7]
  unfold out0_7
  rw [View.canon_unit_zero offsets_zero]
  simp only [View.ld_unit_zero (S := S2000x50) offsets_zero, View.ld_unit_zero (S := S50x256) offsets_zero,
    View.ld_unit_zero (S := S1x256) offsets_zero]
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (iblk0 V c 4 t) (iblk0 V c 5 t) (iblk0 V c 3 t)
      (iblk0 V c 6 t) (ix2 p q)
    = Sage.dense1 (V c main_v21) (V c main_arg0) (V c main_arg2) (fun n => V c main_v22 (ix2 (0 : Fin 1) n))
        (V c main_arg4) (V c main_arg5) (fun n => V c main_v23 (ix2 (0 : Fin 1) n)) (((cfg0.win 7).blk t).view.emb (ix2 p q))
  obtain ⟨e70, e71, -⟩ := block_indices t
  have hp : p.val < 2000 := p.isLt
  have ht : t.val < 25 := t.isLt
  have h : ((cfg0.win 7).blk t).view.emb (ix2 p q) = ix2 (⟨t.val * 2000 + p.val, by omega⟩ : Fin 50000) q := by
    funext a; apply Fin.ext
    match a with
    | ⟨0, _⟩ => show win0_7.index t (0 : Fin 2) * 2000 + 1 * p.val = t.val * 2000 + p.val; omega
    | ⟨1, _⟩ => show win0_7.index t (1 : Fin 2) * 256 + 1 * q.val = q.val; omega
  rw [h]
  exact pay_eq_dense1 _ _ _ _ _ _ _ _ _ _ _ _ _ _ p q _ (fun k => rows_aggregated V c t p k _ rfl)
    (fun k => rows_features V c t p k _ rfl) (whole_weight_agg V c t) (whole_bias V c t 0) (whole_weight_own V c t)
    (whole_weight_lin V c t) (whole_bias_lin V c t 0) rfl

/-- An index of the output array is in point `t`'s block iff each coordinate is in the block's range on its axis. -/
theorem mem_block (t : Fin cfg0.N) (i : S50000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v24).slice (win0_7.rect t)).set ↔ _
  rw [View.set_slice_whole, Rect.mem_set_unit]
  exact Iff.rfl

/-- The 25 row blocks tile the 50000 rows: row `r` is in the block of point `r / 2000`, which writes back. -/
theorem covered (i : S50000x256.Idx) :
    ∃ t : Fin cfg0.N, (cfg0.win 7).flush t = true ∧ i ∈ ((cfg0.win 7).blk t).view.set := by
  have hi0 : (i 0).val < 50000 := (i 0).isLt
  have hi1 : (i 1).val < 256 := (i 1).isLt
  have hN : (i 0).val / 2000 < cfg0.N := by show (i 0).val / 2000 < 25; omega
  refine ⟨⟨(i 0).val / 2000, hN⟩, flush0_7 _, ?_⟩
  obtain ⟨e70, e71, -⟩ := block_indices ⟨(i 0).val / 2000, hN⟩
  have e70' : win0_7.index ⟨(i 0).val / 2000, hN⟩ (0 : Fin 2) = (i 0).val / 2000 := e70
  rw [mem_block]
  intro a
  match a with
  | ⟨0, _⟩ =>
    show win0_7.index ⟨(i 0).val / 2000, hN⟩ (0 : Fin 2) * 2000 ≤ (i 0).val
      ∧ (i 0).val < win0_7.index ⟨(i 0).val / 2000, hN⟩ (0 : Fin 2) * 2000 + 2000
    omega
  | ⟨1, _⟩ =>
    show win0_7.index ⟨(i 0).val / 2000, hN⟩ (1 : Fin 2) * 256 ≤ (i 1).val
      ∧ (i 1).val < win0_7.index ⟨(i 0).val / 2000, hN⟩ (1 : Fin 2) * 256 + 256
    omega

/-- The region's output array after its 25 write-backs. -/
theorem region_value (c : Dev nD) :
    (dat0 (F := Ideal) V c).arrAt 7 cfg0.N
      = Sage.dense1 (V c main_v21) (V c main_arg0) (V c main_arg2) (fun n => V c main_v22 (ix2 (0 : Fin 1) n))
          (V c main_arg4) (V c main_arg5) (fun n => V c main_v23 (ix2 (0 : Fin 1) n)) := by
  exact (dat0 V c).arrAt_eq_of_cover 7 _ (fun t _ => flushed_eq_dense1 V c t) covered

end Cert.KernelIdeal.Val1

end
-- ==== Proof.KBody2.lean ====
/-
  The second layer's kernel body at one entry of its block.

  The body's one store is a pure function of the seven blocks it loads.  Read at row `p`, column `q` of the
  2000 × 121 block it is `Sage.rowOut` of row `p` of the two 2000 × 256 input blocks, the three weight matrices and the
  two bias rows: each of the three matrix products into a zero accumulator is the plain sum over the 256 contracted
  coordinates, the lane sum of the squares is the plain sum over the 121 columns, a change of float format is the
  identity, and the layout operations (a bias row broadcast down the block, the row sums put back as a column and broadcast
  across it) only re-index.
-/
import proofs.«160058_j62663572848802_1_alg».proof.Proof.Gen.KernelIdeal.Skeleton
import proofs.«160058_j62663572848802_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body2

open Cert.KernelIdeal Cert.KernelIdeal.Gen Idealize.ShloMosaic Idealize.ShloMosaic.ValueIdx

/-- The left operand's row coordinate is the output's row. -/
theorem lhs_dot_0 (i : S2000x121.Idx) (q : dot_S2000x256_S256x121_S2000x121_1_0_0_1_n_n.contr.Idx) :
    (dot_S2000x256_S256x121_S2000x121_1_0_0_1_n_n.lhsIdx i q 0).val = (i 0).val := by
  unfold DotDims.lhsIdx
  rw [dif_neg (show ¬(0 : Fin S2000x256.rank) ∈ dot_S2000x256_S256x121_S2000x121_1_0_0_1_n_n.lhsBatch by decide),
    dif_pos (show (0 : Fin S2000x256.rank) ∈ dot_S2000x256_S256x121_S2000x121_1_0_0_1_n_n.lhsNonContracting by decide)]
  rfl

/-- The left operand's column coordinate is the contracted coordinate. -/
theorem lhs_dot_1 (i : S2000x121.Idx) (q : dot_S2000x256_S256x121_S2000x121_1_0_0_1_n_n.contr.Idx) :
    (dot_S2000x256_S256x121_S2000x121_1_0_0_1_n_n.lhsIdx i q 1).val = (q ⟨0, by decide⟩).val :=
  dot_S2000x256_S256x121_S2000x121_1_0_0_1_n_n.lhsIdx_val_of_single rfl i q

/-- The right operand's row coordinate is the contracted coordinate. -/
theorem rhs_dot_0 (i : S2000x121.Idx) (q : dot_S2000x256_S256x121_S2000x121_1_0_0_1_n_n.contr.Idx) :
    (dot_S2000x256_S256x121_S2000x121_1_0_0_1_n_n.rhsIdx i q 0).val = (q ⟨0, by decide⟩).val :=
  dot_S2000x256_S256x121_S2000x121_1_0_0_1_n_n.rhsIdx_val_of_single rfl i q

/-- The right operand's column coordinate is the output's column. -/
theorem rhs_dot_1 (i : S2000x121.Idx) (q : dot_S2000x256_S256x121_S2000x121_1_0_0_1_n_n.contr.Idx) :
    (dot_S2000x256_S256x121_S2000x121_1_0_0_1_n_n.rhsIdx i q 1).val = (i 1).val := by
  unfold DotDims.rhsIdx
  rw [dif_neg (show ¬(1 : Fin S256x121.rank) ∈ dot_S2000x256_S256x121_S2000x121_1_0_0_1_n_n.rhsBatch by decide),
    dif_pos (show (1 : Fin S256x121.rank) ∈ dot_S2000x256_S256x121_S2000x121_1_0_0_1_n_n.rhsNonContracting by decide)]
  rfl

/-- A matrix product into the zero accumulator, at row `p` and column `q`: the sum over the 256 contracted coordinates. -/
theorem matmul_ix (A : FVec Ideal S2000x256 .bf16) (B : FVec Ideal S256x121 .bf16) (p : Fin 2000) (q : Fin 121) :
    matmul dot_S2000x256_S256x121_S2000x121_1_0_0_1_n_n none A B (constant (F := Ideal) S2000x121 .f32 0x00000000#32) (ix2 p q)
      = ∑ k : Fin 256, A (ix2 p k) * B (ix2 k q) := by
  simp only [matmul]
  rw [Ideal.matmul_constant_zero_apply,
    ← Equiv.sum_comp (ValueIdx.contrEquiv1 dot_S2000x256_S256x121_S2000x121_1_0_0_1_n_n 256 rfl rfl).symm]
  refine Finset.sum_congr rfl fun k _ => ?_
  have hk := ValueIdx.contrEquiv1_symm_val dot_S2000x256_S256x121_S2000x121_1_0_0_1_n_n 256 rfl rfl k
  have el : dot_S2000x256_S256x121_S2000x121_1_0_0_1_n_n.lhsIdx (ix2 p q)
      ((ValueIdx.contrEquiv1 dot_S2000x256_S256x121_S2000x121_1_0_0_1_n_n 256 rfl rfl).symm k) = ix2 p k :=
    funext fun a => Fin.ext (by
      match a with
      | ⟨0, _⟩ => exact lhs_dot_0 _ _
      | ⟨1, _⟩ => exact (lhs_dot_1 _ _).trans hk)
  have er : dot_S2000x256_S256x121_S2000x121_1_0_0_1_n_n.rhsIdx (ix2 p q)
      ((ValueIdx.contrEquiv1 dot_S2000x256_S256x121_S2000x121_1_0_0_1_n_n 256 rfl rfl).symm k) = ix2 k q :=
    funext fun a => Fin.ext (by
      match a with
      | ⟨0, _⟩ => exact (rhs_dot_0 _ _).trans hk
      | ⟨1, _⟩ => exact rhs_dot_1 _ _)
  rw [el, er]

/-- The lane sum of a block, at row `p`: the sum over the 121 columns. -/
theorem rowsum_ix (v : FVec Ideal S2000x121 .f32) (p : Fin 2000) :
    multiReduction (F := Ideal) .add [1] S2000 v 0x00000000#32 reduces_S2000x121_S2000 (.inl rfl) rfl (ix1 p)
      = ∑ n : Fin 121, v (ix2 p n) := by
  refine (Ideal.multiReduction_add_single v _ reduces_S2000x121_S2000 (.inl rfl) rfl (ix1 p)).trans ?_
  refine Finset.sum_congr rfl fun n _ => congrArg v ?_
  funext a
  match a with
  | ⟨0, _⟩ => exact Fin.ext rfl
  | ⟨1, _⟩ => exact Fin.ext rfl

section Layout
variable {α : Type}

/-- A vector of length `a` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A block's square root at an index is the square root of the entry. -/
theorem sqrt_apply {s : Shape} {φ : FTy} (a : FVec Ideal s φ) (i : s.Idx) : sqrt a i = Ideal.sqrt (a i) := rfl

/-- The payload of the body's store, at row `p` and column `q` of the output block. -/
theorem pay_apply (v0 v3 : Vec Ideal S2000x256 .f32) (v5 v7 v9 : Vec Ideal S256x121 .f32) (v12 v27 : Vec Ideal S1x121 .f32)
    (p : Fin 2000) (q : Fin 121) :
    k1_pay1 (F := Ideal) v0 v3 v5 v7 v9 v12 v27 (ix2 p q)
      = Sage.rowOut (fun k : Fin 256 => v0 (ix2 p k)) (fun k : Fin 256 => v3 (ix2 p k))
          (fun (k : Fin 256) (n : Fin 121) => v5 (ix2 k n)) (fun n : Fin 121 => v12 (ix2 (0 : Fin 1) n))
          (fun (k : Fin 256) (n : Fin 121) => v7 (ix2 k n)) (fun (k : Fin 256) (n : Fin 121) => v9 (ix2 k n))
          (fun n : Fin 121 => v27 (ix2 (0 : Fin 1) n)) q := by
  unfold k1_pay1
  simp only [shapeCast_self, addf_apply, divf_apply, mulf_apply, maximumf_apply, truncf_apply, broadcast_apply, sqrt_apply,
    matmul_ix, shapeCast_a_a1_apply, broadcastTo_a1_ab_apply, broadcastTo_1b_ab_apply]
  rw [rowsum_ix]
  simp only [addf_apply, mulf_apply, truncf_apply, matmul_ix, broadcastTo_1b_ab_apply]
  unfold Sage.rowOut Sage.normed Sage.lin Sage.sumsq Sage.pre Sage.eps
  rfl

end Cert.KernelIdeal.Body2

end
-- ==== Proof.KVal2.lean ====
/-
  What the second region leaves in its output array, for any contents `V` the region is entered from.

  Grid point `t` stages rows `2000·t … 2000·t + 1999` of the two row-blocked inputs and all of the five small operands,
  and writes back the body's result as rows `2000·t …` of the output.  By the payload read at an index, that block is block
  `t` of `Sage.dense2` of the whole arrays; the 25 blocks tile the 50000 rows, so the array ends holding that function.
-/
import proofs.«160058_j62663572848802_1_alg».proof.Proof.Gen.KernelIdeal.Frame
import proofs.«160058_j62663572848802_1_alg».proof.Proof.KBody2
import proofs.«160058_j62663572848802_1_alg».proof.Proof.Final
import Idealize.ShloMosaic.Lib.Pipeline.Value

set_option maxRecDepth 16384

noncomputable section

namespace Cert.KernelIdeal.Val2

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The two zero offsets, spelt as a vector, are the constant zero function. -/
theorem zero_offsets : (![0, 0] : Fin 2 → Nat) = fun _ => 0 :=
  funext fun a => by match a with | ⟨0, _⟩ => rfl | ⟨1, _⟩ => rfl

/-- The grid has 25 points. -/
theorem points_eq : cfg1.N = 25 := N_1

/-- The block indices over the grid: the row-blocked windows (the two inputs and the output) are at block row `t`,
    column block 0; the five small operands are at block (0, 0). -/
theorem block_indices : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = 0 ∧ win1_5.index t (1 : Fin 2) = 0
  ∧ win1_6.index t (0 : Fin 2) = 0 ∧ win1_6.index t (1 : Fin 2) = 0
  ∧ win1_7.index t (0 : Fin 2) = t.val ∧ win1_7.index t (1 : Fin 2) = 0 :=
  (by decide +kernel : ∀ t : Fin grid1.N, _)

/-- Row `p` of block `t` is row `2000·t + p` of the array, one of its 50000. -/
theorem row_lt (t : Fin cfg1.N) (p : Fin 2000) : t.val * 2000 + p.val < 50000 := by
  have ht : t.val < 25 := points_eq ▸ t.isLt
  have hp := p.isLt
  omega

/-- Window 0's block at point `t` holds rows `2000·t …` of its array. -/
theorem block0_apply (c : Dev nD) (t : Fin cfg1.N) (p : Fin 2000) (k : Fin 256) :
    iblk1 (F := Ideal) V c 0 t (ix2 p k) = V c main_v42 (ix2 (⟨t.val * 2000 + p.val, row_lt t p⟩ : Fin 50000) k) := by
  have e := block_indices t
  have e0 : win1_0.index t (0 : Fin 2) = t.val := e.1
  have e1 : win1_0.index t (1 : Fin 2) = 0 := e.2.1
  show V c main_v42 (((cfg1.win 0).blk t).view.emb (ix2 p k)) = _
  refine congrArg _ ?_
  funext a; apply Fin.ext
  match a with
  | ⟨0, _⟩ => show win1_0.index t (0 : Fin 2) * 2000 + 1 * p.val = t.val * 2000 + p.val; rw [e0]; omega
  | ⟨1, _⟩ => show win1_0.index t (1 : Fin 2) * 256 + 1 * k.val = k.val; rw [e1]; omega

/-- Window 1's block at point `t` holds rows `2000·t …` of its array. -/
theorem block1_apply (c : Dev nD) (t : Fin cfg1.N) (p : Fin 2000) (k : Fin 256) :
    iblk1 (F := Ideal) V c 1 t (ix2 p k) = V c main_v24 (ix2 (⟨t.val * 2000 + p.val, row_lt t p⟩ : Fin 50000) k) := by
  have e := block_indices t
  have e0 : win1_1.index t (0 : Fin 2) = t.val := e.2.2.1
  have e1 : win1_1.index t (1 : Fin 2) = 0 := e.2.2.2.1
  show V c main_v24 (((cfg1.win 1).blk t).view.emb (ix2 p k)) = _
  refine congrArg _ ?_
  funext a; apply Fin.ext
  match a with
  | ⟨0, _⟩ => show win1_1.index t (0 : Fin 2) * 2000 + 1 * p.val = t.val * 2000 + p.val; rw [e0]; omega
  | ⟨1, _⟩ => show win1_1.index t (1 : Fin 2) * 256 + 1 * k.val = k.val; rw [e1]; omega

/-- Window 2's block at every point is its whole array (a weight matrix). -/
theorem block2_apply (c : Dev nD) (t : Fin cfg1.N) (k : Fin 256) (n : Fin 121) :
    iblk1 (F := Ideal) V c 2 t (ix2 k n) = V c main_arg7 (ix2 k n) := by
  have e := block_indices t
  have e0 : win1_2.index t (0 : Fin 2) = 0 := e.2.2.2.2.1
  have e1 : win1_2.index t (1 : Fin 2) = 0 := e.2.2.2.2.2.1
  show V c main_arg7 (((cfg1.win 2).blk t).view.emb (ix2 k n)) = _
  refine congrArg _ ?_
  funext a; apply Fin.ext
  match a with
  | ⟨0, _⟩ => show win1_2.index t (0 : Fin 2) * 256 + 1 * k.val = k.val; rw [e0]; omega
  | ⟨1, _⟩ => show win1_2.index t (1 : Fin 2) * 121 + 1 * n.val = n.val; rw [e1]; omega

/-- Window 3's block at every point is its whole array (a bias row). -/
theorem block3_apply (c : Dev nD) (t : Fin cfg1.N) (k : Fin 1) (n : Fin 121) :
    iblk1 (F := Ideal) V c 3 t (ix2 k n) = V c main_v43 (ix2 k n) := by
  have e := block_indices t
  have e0 : win1_3.index t (0 : Fin 2) = 0 := e.2.2.2.2.2.2.1
  have e1 : win1_3.index t (1 : Fin 2) = 0 := e.2.2.2.2.2.2.2.1
  show V c main_v43 (((cfg1.win 3).blk t).view.emb (ix2 k n)) = _
  refine congrArg _ ?_
  funext a; apply Fin.ext
  match a with
  | ⟨0, _⟩ => show win1_3.index t (0 : Fin 2) * 1 + 1 * k.val = k.val; rw [e0]; omega
  | ⟨1, _⟩ => show win1_3.index t (1 : Fin 2) * 121 + 1 * n.val = n.val; rw [e1]; omega

/-- Window 4's block at every point is its whole array (a weight matrix). -/
theorem block4_apply (c : Dev nD) (t : Fin cfg1.N) (k : Fin 256) (n : Fin 121) :
    iblk1 (F := Ideal) V c 4 t (ix2 k n) = V c main_arg9 (ix2 k n) := by
  have e := block_indices t
  have e0 : win1_4.index t (0 : Fin 2) = 0 := e.2.2.2.2.2.2.2.2.1
  have e1 : win1_4.index t (1 : Fin 2) = 0 := e.2.2.2.2.2.2.2.2.2.1
  show V c main_arg9 (((cfg1.win 4).blk t).view.emb (ix2 k n)) = _
  refine congrArg _ ?_
  funext a; apply Fin.ext
  match a with
  | ⟨0, _⟩ => show win1_4.index t (0 : Fin 2) * 256 + 1 * k.val = k.val; rw [e0]; omega
  | ⟨1, _⟩ => show win1_4.index t (1 : Fin 2) * 121 + 1 * n.val = n.val; rw [e1]; omega

/-- Window 5's block at every point is its whole array (a weight matrix). -/
theorem block5_apply (c : Dev nD) (t : Fin cfg1.N) (k : Fin 256) (n : Fin 121) :
    iblk1 (F := Ideal) V c 5 t (ix2 k n) = V c main_arg10 (ix2 k n) := by
  have e := block_indices t
  have e0 : win1_5.index t (0 : Fin 2) = 0 := e.2.2.2.2.2.2.2.2.2.2.1
  have e1 : win1_5.index t (1 : Fin 2) = 0 := e.2.2.2.2.2.2.2.2.2.2.2.1
  show V c main_arg10 (((cfg1.win 5).blk t).view.emb (ix2 k n)) = _
  refine congrArg _ ?_
  funext a; apply Fin.ext
  match a with
  | ⟨0, _⟩ => show win1_5.index t (0 : Fin 2) * 256 + 1 * k.val = k.val; rw [e0]; omega
  | ⟨1, _⟩ => show win1_5.index t (1 : Fin 2) * 121 + 1 * n.val = n.val; rw [e1]; omega

/-- Window 6's block at every point is its whole array (a bias row). -/
theorem block6_apply (c : Dev nD) (t : Fin cfg1.N) (k : Fin 1) (n : Fin 121) :
    iblk1 (F := Ideal) V c 6 t (ix2 k n) = V c main_v44 (ix2 k n) := by
  have e := block_indices t
  have e0 : win1_6.index t (0 : Fin 2) = 0 := e.2.2.2.2.2.2.2.2.2.2.2.2.1
  have e1 : win1_6.index t (1 : Fin 2) = 0 := e.2.2.2.2.2.2.2.2.2.2.2.2.2.1
  show V c main_v44 (((cfg1.win 6).blk t).view.emb (ix2 k n)) = _
  refine congrArg _ ?_
  funext a; apply Fin.ext
  match a with
  | ⟨0, _⟩ => show win1_6.index t (0 : Fin 2) * 1 + 1 * k.val = k.val; rw [e0]; omega
  | ⟨1, _⟩ => show win1_6.index t (1 : Fin 2) * 121 + 1 * n.val = n.val; rw [e1]; omega

/-- An element of the output's block at point `t` sits at row `2000·t + p`, same column, of the array. -/
theorem out_block_emb (t : Fin cfg1.N) (p : Fin 2000) (q : Fin 121) :
    ((cfg1.win 7).blk t).view.emb (ix2 p q) = ix2 (⟨t.val * 2000 + p.val, row_lt t p⟩ : Fin 50000) q := by
  have e := block_indices t
  have e0 : win1_7.index t (0 : Fin 2) = t.val := e.2.2.2.2.2.2.2.2.2.2.2.2.2.2.1
  have e1 : win1_7.index t (1 : Fin 2) = 0 := e.2.2.2.2.2.2.2.2.2.2.2.2.2.2.2
  funext a; apply Fin.ext
  match a with
  | ⟨0, _⟩ => show win1_7.index t (0 : Fin 2) * 2000 + 1 * p.val = t.val * 2000 + p.val; rw [e0]; omega
  | ⟨1, _⟩ => show win1_7.index t (1 : Fin 2) * 121 + 1 * q.val = q.val; rw [e1]; omega

/-- What grid point `t` writes back is block `t` of the second layer over the whole arrays. -/
theorem flushed_eq_block (c : Dev nD) (t : Fin cfg1.N) :
    (dat1 (F := Ideal) V c).flushed 7 t = ((cfg1.win 7).blk t).view.read (Elt Ideal)
      (Sage.dense2 (V c main_v42) (V c main_v24) (V c main_arg7) (fun n => V c main_v43 (ix2 (0 : Fin 1) n))
          (V c main_arg9) (V c main_arg10) (fun n => V c main_v44 (ix2 (0 : Fin 1) n))) := by
  show (cfg1.win 7).cut (grid1.coords t) ((dat1 (F := Ideal) V c).after 7 t) = _
  rw [after1_7]
  unfold out1_7
  rw [View.canon_unit_zero zero_offsets]
  simp only [View.ld_unit_zero (S := S2000x256) zero_offsets, View.ld_unit_zero (S := S256x121) zero_offsets, View.ld_unit_zero (S := S1x121) zero_offsets]
  funext j
  obtain ⟨p, q, rfl⟩ : ∃ (p : Fin 2000) (q : Fin 121), j = ix2 p q := ⟨j 0, j 1, eq_ix2 j⟩
  show k1_pay1 (F := Ideal) (iblk1 V c 0 t) (iblk1 V c 1 t) (iblk1 V c 2 t) (iblk1 V c 4 t) (iblk1 V c 5 t) (iblk1 V c 3 t) (iblk1 V c 6 t) (ix2 p q)
    = Sage.dense2 (V c main_v42) (V c main_v24) (V c main_arg7) (fun n => V c main_v43 (ix2 (0 : Fin 1) n))
          (V c main_arg9) (V c main_arg10) (fun n => V c main_v44 (ix2 (0 : Fin 1) n)) (((cfg1.win 7).blk t).view.emb (ix2 p q))
  rw [Body2.pay_apply, out_block_emb]
  simp only [block0_apply, block1_apply, block2_apply, block3_apply, block4_apply, block5_apply, block6_apply]
  rfl

/-- An index of the output array is in point `t`'s block iff each coordinate is in the block's range on its axis. -/
theorem mem_block (t : Fin cfg1.N) (i : S50000x121.Idx) :
    i ∈ ((cfg1.win 7).blk t).view.set ↔ ∀ a : Fin 2, win1_7.index t a * S2000x121.size a ≤ (i a).val ∧ (i a).val < win1_7.index t a * S2000x121.size a + S2000x121.size a := by
  show i ∈ ((View.whole main_v45).slice (win1_7.rect t)).set ↔ _
  rw [View.set_slice_whole, Rect.mem_set_unit]
  exact Iff.rfl

/-- Every index of the output array is in some point's block: row `r` is in block `r / 2000`. -/
theorem covered (i : S50000x121.Idx) :
    ∃ t : Fin cfg1.N, (cfg1.win 7).flush t = true ∧ i ∈ ((cfg1.win 7).blk t).view.set := by
  have hi0 : (i 0).val < 50000 := (i 0).isLt
  have hi1 : (i 1).val < 121 := (i 1).isLt
  have ht : (i 0).val / 2000 < cfg1.N := by rw [points_eq]; omega
  have e := block_indices ⟨(i 0).val / 2000, ht⟩
  have e0 : win1_7.index ⟨(i 0).val / 2000, ht⟩ (0 : Fin 2) = (i 0).val / 2000 := e.2.2.2.2.2.2.2.2.2.2.2.2.2.2.1
  have e1 : win1_7.index ⟨(i 0).val / 2000, ht⟩ (1 : Fin 2) = 0 := e.2.2.2.2.2.2.2.2.2.2.2.2.2.2.2
  refine ⟨⟨(i 0).val / 2000, ht⟩, flush1_7 _, ?_⟩
  rw [mem_block]
  intro a
  match a with
  | ⟨0, _⟩ =>
    show win1_7.index ⟨(i 0).val / 2000, ht⟩ (0 : Fin 2) * 2000 ≤ (i 0).val ∧ (i 0).val < win1_7.index ⟨(i 0).val / 2000, ht⟩ (0 : Fin 2) * 2000 + 2000
    rw [e0]; omega
  | ⟨1, _⟩ =>
    show win1_7.index ⟨(i 0).val / 2000, ht⟩ (1 : Fin 2) * 121 ≤ (i 1).val ∧ (i 1).val < win1_7.index ⟨(i 0).val / 2000, ht⟩ (1 : Fin 2) * 121 + 121
    rw [e1]; omega

/-- The region's output array after its 25 write-backs. -/
theorem region_value (c : Dev nD) :
    (dat1 (F := Ideal) V c).arrAt 7 cfg1.N
      = Sage.dense2 (V c main_v42) (V c main_v24) (V c main_arg7) (fun n => V c main_v43 (ix2 (0 : Fin 1) n))
          (V c main_arg9) (V c main_arg10) (fun n => V c main_v44 (ix2 (0 : Fin 1) n)) :=
  (dat1 (F := Ideal) V c).arrAt_eq_of_cover 7 _ (fun t _ => flushed_eq_block V c t) covered

end Cert.KernelIdeal.Val2

end
-- ==== Proof.KValue.lean ====
/-
  The kernel program's result as a function of its arguments.

  The run leaves the result buffer at the second region's output array.  That array is `Sage.dense2` of the arrays the
  region is entered from (the second region's value); those are, through the second stretch of host operations, the mean of
  the first region's output along the edges, that output itself, three of the arguments and two bias vectors written as
  one-row matrices.  The first region's output is `Sage.dense1` of the arrays IT is entered from, which the first stretch of
  host operations makes from the arguments the same way.  Composed, the result is `Sage.network` of the twelve arguments.
-/
import proofs.«160058_j62663572848802_1_alg».proof.Proof.Gen.KernelIdeal.Frame
import proofs.«160058_j62663572848802_1_alg».proof.Proof.KVal1
import proofs.«160058_j62663572848802_1_alg».proof.Proof.KVal2
import proofs.«160058_j62663572848802_1_alg».proof.Proof.Final
import Idealize.ShloMosaic.Lib.StableHlo.Run
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
  Idealize.ShloMosaic.StableHlo

variable (m : (ℓ : Loc nD τ sig) → Buf (Elt Ideal) ℓ) (ρ : Dev nD → PrngReg)

/-! ## The first stretch of host operations: what the first region is entered from -/

/-- The source-node row of the edge list, as the first stretch leaves it. -/
theorem W1_v1 (c : Dev nD) : W1 m ρ c (Proc.devRef .tc main_v1) = Agg.idx0 (m ((c : Thread nD τ).loc main_arg1)) := by
  show StableHlo.after hostOps0 (W0 m ρ c) (Proc.devRef .tc main_v1) = _
  after_results_simp
  try rfl

/-- The destination-node row of the edge list. -/
theorem W1_v3 (c : Dev nD) : W1 m ρ c (Proc.devRef .tc main_v3) = Agg.idx1 (m ((c : Thread nD τ).loc main_arg1)) := by
  show StableHlo.after hostOps0 (W0 m ρ c) (Proc.devRef .tc main_v3) = _
  after_results_simp
  try rfl

set_option maxHeartbeats 2000000 in
/-- The first region's aggregated input is the mean of the node features along the edges. -/
theorem V1_v21 (c : Dev nD) :
    (V1 m ρ c main_v21 : FVec Ideal S50000x50 .f32) = Agg.mean50 (F := Ideal) (m ((c : Thread nD τ).loc main_arg0)) (Agg.idx0 (m ((c : Thread nD τ).loc main_arg1))) (Agg.idx1 (m ((c : Thread nD τ).loc main_arg1))) := by
  show StableHlo.after hostOps0 (W0 m ρ c) (Proc.devRef .tc main_v21) = _
  after_results_simp
  try rfl

/-- No host operation writes argument 0. -/
theorem V1_arg0 (c : Dev nD) : V1 m ρ c main_arg0 = (m ((c : Thread nD τ).loc main_arg0)) := by
  show StableHlo.after hostOps0 (W0 m ρ c) (Proc.devRef .tc main_arg0) = _
  after_results_simp
  try rfl

/-- No host operation writes argument 2. -/
theorem V1_arg2 (c : Dev nD) : V1 m ρ c main_arg2 = (m ((c : Thread nD τ).loc main_arg2)) := by
  show StableHlo.after hostOps0 (W0 m ρ c) (Proc.devRef .tc main_arg2) = _
  after_results_simp
  try rfl

/-- No host operation writes argument 4. -/
theorem V1_arg4 (c : Dev nD) : V1 m ρ c main_arg4 = (m ((c : Thread nD τ).loc main_arg4)) := by
  show StableHlo.after hostOps0 (W0 m ρ c) (Proc.devRef .tc main_arg4) = _
  after_results_simp
  try rfl

/-- No host operation writes argument 5. -/
theorem V1_arg5 (c : Dev nD) : V1 m ρ c main_arg5 = (m ((c : Thread nD τ).loc main_arg5)) := by
  show StableHlo.after hostOps0 (W0 m ρ c) (Proc.devRef .tc main_arg5) = _
  after_results_simp
  try rfl

/-- The first bias vector written as a one-row matrix. -/
theorem V1_v22 (c : Dev nD) (n : Fin 256) : V1 m ρ c main_v22 (ix2 (0 : Fin 1) n) = (m ((c : Thread nD τ).loc main_arg3)) (ix1 n) := by
  have e : V1 m ρ c main_v22 = shapeCast S1x256 (m ((c : Thread nD τ).loc main_arg3)) shapeCasts_S256_S1x256 := by
    show StableHlo.after hostOps0 (W0 m ρ c) (Proc.devRef .tc main_v22) = _
    after_results_simp
    try rfl
  rw [e]
  exact shapeCast_a_1a_apply _ _ _ _

/-- The first linear branch's bias vector written as a one-row matrix. -/
theorem V1_v23 (c : Dev nD) (n : Fin 256) : V1 m ρ c main_v23 (ix2 (0 : Fin 1) n) = (m ((c : Thread nD τ).loc main_arg6)) (ix1 n) := by
  have e : V1 m ρ c main_v23 = shapeCast S1x256 (m ((c : Thread nD τ).loc main_arg6)) shapeCasts_S256_S1x256 := by
    show StableHlo.after hostOps0 (W0 m ρ c) (Proc.devRef .tc main_v23) = _
    after_results_simp
    try rfl
  rw [e]
  exact shapeCast_a_1a_apply _ _ _ _

/-! ## The first region's output: the hidden features -/

/-- After the first region its output array holds the hidden features. -/
theorem hidden_eq (c : Dev nD) :
    V2 m ρ c main_v24 = Sage.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W2_arr m ρ c 7).trans (Val1.region_value (V1 m ρ) c)).trans ?_
  unfold Sage.hidden
  rw [V1_v21, V1_arg0, V1_arg2, V1_arg4, V1_arg5]
  exact congrArg₂ (fun b bp => Sage.dense1 _ _ _ b _ _ bp) (funext fun n => V1_v22 m ρ c n) (funext fun n => V1_v23 m ρ c n)

/-! ## The second stretch of host operations: what the second region is entered from -/

set_option maxHeartbeats 2000000 in
/-- The second region's aggregated input is the mean of the hidden features along the edges. -/
theorem V3_v42 (c : Dev nD) :
    (V3 m ρ c main_v42 : FVec Ideal S50000x256 .f32) = Agg.mean256 (F := Ideal) (V2 m ρ c main_v24) (Agg.idx0 (m ((c : Thread nD τ).loc main_arg1))) (Agg.idx1 (m ((c : Thread nD τ).loc main_arg1))) := by
  have e1 : W2 m ρ c (Proc.devRef .tc main_v1) = Agg.idx0 (m ((c : Thread nD τ).loc main_arg1)) :=
    (W2_of_ne m ρ c main_v1 (by decide)).trans (W1_v1 m ρ c)
  have e3 : W2 m ρ c (Proc.devRef .tc main_v3) = Agg.idx1 (m ((c : Thread nD τ).loc main_arg1)) :=
    (W2_of_ne m ρ c main_v3 (by decide)).trans (W1_v3 m ρ c)
  show StableHlo.after hostOps1 (W2 m ρ c) (Proc.devRef .tc main_v42) = _
  after_results_simp
  rw [e1, e3]
  rfl

/-- The second stretch leaves the hidden features where they are. -/
theorem V3_v24 (c : Dev nD) : V3 m ρ c main_v24 = V2 m ρ c main_v24 := by
  show StableHlo.after hostOps1 (W2 m ρ c) (Proc.devRef .tc main_v24) = _
  after_results_simp
  try rfl

/-- Nothing before the second region writes argument 7. -/
theorem V3_arg7 (c : Dev nD) : V3 m ρ c main_arg7 = (m ((c : Thread nD τ).loc main_arg7)) := by
  have e2 : W2 m ρ c (Proc.devRef .tc main_arg7) = (m ((c : Thread nD τ).loc main_arg7)) :=
    (W2_of_ne m ρ c main_arg7 (by decide)).trans (by
      show StableHlo.after hostOps0 (W0 m ρ c) (Proc.devRef .tc main_arg7) = _
      after_results_simp
      try rfl)
  show StableHlo.after hostOps1 (W2 m ρ c) (Proc.devRef .tc main_arg7) = _
  after_results_simp
  exact e2

/-- Nothing before the second region writes argument 9. -/
theorem V3_arg9 (c : Dev nD) : V3 m ρ c main_arg9 = (m ((c : Thread nD τ).loc main_arg9)) := by
  have e2 : W2 m ρ c (Proc.devRef .tc main_arg9) = (m ((c : Thread nD τ).loc main_arg9)) :=
    (W2_of_ne m ρ c main_arg9 (by decide)).trans (by
      show StableHlo.after hostOps0 (W0 m ρ c) (Proc.devRef .tc main_arg9) = _
      after_results_simp
      try rfl)
  show StableHlo.after hostOps1 (W2 m ρ c) (Proc.devRef .tc main_arg9) = _
  after_results_simp
  exact e2

/-- Nothing before the second region writes argument 10. -/
theorem V3_arg10 (c : Dev nD) : V3 m ρ c main_arg10 = (m ((c : Thread nD τ).loc main_arg10)) := by
  have e2 : W2 m ρ c (Proc.devRef .tc main_arg10) = (m ((c : Thread nD τ).loc main_arg10)) :=
    (W2_of_ne m ρ c main_arg10 (by decide)).trans (by
      show StableHlo.after hostOps0 (W0 m ρ c) (Proc.devRef .tc main_arg10) = _
      after_results_simp
      try rfl)
  show StableHlo.after hostOps1 (W2 m ρ c) (Proc.devRef .tc main_arg10) = _
  after_results_simp
  exact e2

/-- Bias vector 8 written as a one-row matrix. -/
theorem V3_v43 (c : Dev nD) (n : Fin 121) : V3 m ρ c main_v43 (ix2 (0 : Fin 1) n) = (m ((c : Thread nD τ).loc main_arg8)) (ix1 n) := by
  have e2 : W2 m ρ c (Proc.devRef .tc main_arg8) = (m ((c : Thread nD τ).loc main_arg8)) :=
    (W2_of_ne m ρ c main_arg8 (by decide)).trans (by
      show StableHlo.after hostOps0 (W0 m ρ c) (Proc.devRef .tc main_arg8) = _
      after_results_simp
      try rfl)
  have e : V3 m ρ c main_v43 = shapeCast S1x121 (m ((c : Thread nD τ).loc main_arg8)) shapeCasts_S121_S1x121 := by
    show StableHlo.after hostOps1 (W2 m ρ c) (Proc.devRef .tc main_v43) = _
    after_results_simp
    rw [e2]
    rfl
  rw [e]
  exact shapeCast_a_1a_apply _ _ _ _

/-- Bias vector 11 written as a one-row matrix. -/
theorem V3_v44 (c : Dev nD) (n : Fin 121) : V3 m ρ c main_v44 (ix2 (0 : Fin 1) n) = (m ((c : Thread nD τ).loc main_arg11)) (ix1 n) := by
  have e2 : W2 m ρ c (Proc.devRef .tc main_arg11) = (m ((c : Thread nD τ).loc main_arg11)) :=
    (W2_of_ne m ρ c main_arg11 (by decide)).trans (by
      show StableHlo.after hostOps0 (W0 m ρ c) (Proc.devRef .tc main_arg11) = _
      after_results_simp
      try rfl)
  have e : V3 m ρ c main_v44 = shapeCast S1x121 (m ((c : Thread nD τ).loc main_arg11)) shapeCasts_S121_S1x121 := by
    show StableHlo.after hostOps1 (W2 m ρ c) (Proc.devRef .tc main_v44) = _
    after_results_simp
    rw [e2]
    rfl
  rw [e]
  exact shapeCast_a_1a_apply _ _ _ _

/-! ## The result -/

/-- The result array after the run is the network's output on the twelve arguments. -/
theorem out_eq (c : Dev nD) :
    W4 m ρ c (Proc.devRef .tc main_v45) = Sage.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine ((W4_arr m ρ c 7).trans (Val2.region_value (V3 m ρ) c)).trans ?_
  unfold Sage.network
  rw [V3_v42, V3_v24, hidden_eq, V3_arg7, V3_arg9, V3_arg10]
  exact congrArg₂ (fun b bp => Sage.dense2 _ _ _ b _ _ bp) (funext fun n => V3_v43 m ρ c n) (funext fun n => V3_v44 m ρ c n)

end Cert.KernelIdeal.KValue

end
-- ==== Proof.RDefs.lean ====
/-
  The reference program's host operations, grouped: the neighbourhood mean (as in the kernel's program), and per layer
  the SAGE pre-activation `(M·Wl + b) + X·Wr`, its row normalisation, the parallel linear branch, and for the first
  layer the ELU as it is spelt there (`expm1` of a guarded argument, times one).  `refOut` composes them in the order
  of the program; the run's result buffer is shown to hold it, and each group is then read at an index.
-/
import proofs.«160058_j62663572848802_1_alg».proof.Proof.Gen.ReferenceIdeal

noncomputable section

namespace Cert.ReferenceIdeal.R

open Cert.ReferenceIdeal Cert.ReferenceIdeal.Gen Idealize.ShloMosaic

variable {F : FTy → Type} [FloatOps F]

/-- Row 0 of the edge list: each edge's source node, as written. -/
def idx0 (e : IVec S2x800000 32) : IVec S800000 32 := fun i =>
  shapeCast S800000 (extractStridedSlice S1x800000 ![0, 0] e slices_S2x800000_S1x800000_0_0) shapeCasts_S1x800000_S800000 i

/-- Row 1 of the edge list: each edge's destination node. -/
def idx1 (e : IVec S2x800000 32) : IVec S800000 32 := fun i =>
  shapeCast S800000 (extractStridedSlice S1x800000 ![1, 0] e slices_S2x800000_S1x800000_1_0) shapeCasts_S1x800000_S800000 i

/-- The source indices as indexing reads them: below zero, 50000 is added. -/
def src (v1 : IVec S800000 32) : IVec S800000 32 :=
  select (cmpi .slt v1 (broadcastInDim S800000 ![] bcast_S_S800000 (constantI S_ 32 0#32)))
    (addi v1 (broadcastInDim S800000 ![] bcast_S_S800000 (constantI S_ 32 50000#32))) v1

/-- How many edges end at each node, floored at one. -/
def degree (v3 : IVec S800000 32) : FVec F S50000x1 .f32 :=
  maximumf
    (Host.scatterAdd scatter_S50000x1_S800000x1_S800000x1_1_0_0_1
      (broadcastInDim S50000x1 ![] bcast_S_S50000x1 (constant S_ .f32 0x00000000#32))
      (broadcastInDim S800000x1 ![0] bcast_S800000_S800000x1_0 v3)
      (broadcastInDim S800000x1 ![] bcast_S_S800000x1 (constant S_ .f32 0x3F800000#32)))
    (broadcastInDim S50000x1 ![] bcast_S_S50000x1 (constant S_ .f32 0x3F800000#32))

/-- The mean of the 50-feature rows over each node's incoming edges. -/
def mean50 (x : FVec F S50000x50 .f32) (v1 v3 : IVec S800000 32) : FVec F S50000x50 .f32 :=
  Host.divf
    (Host.scatterAdd scatter_S50000x50_S800000x1_S800000x50_1_0_0_1
      (broadcastInDim S50000x50 ![] bcast_S_S50000x50 (constant S_ .f32 0x00000000#32))
      (broadcastInDim S800000x1 ![0] bcast_S800000_S800000x1_0 v3)
      (Host.gather gather_S50000x50_S800000x1_S800000x50_1_0_n_n_0_1_150 x
        (broadcastInDim S800000x1 ![0] bcast_S800000_S800000x1_0 (src v1))))
    (broadcastInDim S50000x50 ![0, 1] bcast_S50000x1_S50000x50_0_1 (degree v3))

/-- The mean of the 256-feature rows over each node's incoming edges. -/
def mean256 (h : FVec F S50000x256 .f32) (v1 v3 : IVec S800000 32) : FVec F S50000x256 .f32 :=
  Host.divf
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 v3)
      (Host.gather gather_S50000x256_S800000x1_S800000x256_1_0_n_n_0_1_1256 h
        (broadcastInDim S800000x1 ![0] bcast_S800000_S800000x1_0 (src v1))))
    (broadcastInDim S50000x256 ![0, 1] bcast_S50000x1_S50000x256_0_1 (degree v3))

/-! ## The first layer -/

/-- `(M · Wl + b) + X · Wr` on every node. -/
def pre1 (M X : FVec F S50000x50 .f32) (Wl : FVec F S50x256 .f32) (b : FVec F S256 .f32) (Wr : FVec F S50x256 .f32) :
    FVec F S50000x256 .f32 :=
  addf
    (addf (Host.dotGeneral dot_S50000x50_S50x256_S50000x256_1_0_0_1_n_n none M Wl)
      (broadcastInDim S50000x256 ![0, 1] bcast_S1x256_S50000x256_0_1 (broadcastInDim S1x256 ![1] bcast_S256_S1x256_1 b)))
    (Host.dotGeneral dot_S50000x50_S50x256_S50000x256_1_0_0_1_n_n none X Wr)

/-- Each row divided by its length, the length floored at the small constant. -/
def norm1 (P : FVec F S50000x256 .f32) : FVec F S50000x256 .f32 :=
  Host.divf P
    (broadcastInDim S50000x256 ![0, 1] bcast_S50000x1_S50000x256_0_1
      (maximumf
        (Host.sqrt (broadcastInDim S50000x1 ![0] bcast_S50000_S50000x1_0
          (Host.reduceAdd (mulf P P) (constant S_ .f32 0x00000000#32) reducesTo_S50000x256_S50000_d1 h_S_)))
        (broadcastInDim S50000x1 ![] bcast_S_S50000x1 (constant S_ .f32 0x2B8CBCCC#32))))

/-- The parallel linear branch `X · Wp + bp`. -/
def lin1 (X : FVec F S50000x50 .f32) (Wp : FVec F S50x256 .f32) (bp : FVec F S256 .f32) : FVec F S50000x256 .f32 :=
  addf (Host.dotGeneral dot_S50000x50_S50x256_S50000x256_1_0_0_1_n_n none X Wp)
    (broadcastInDim S50000x256 ![0, 1] bcast_S1x256_S50000x256_0_1 (broadcastInDim S1x256 ![1] bcast_S256_S1x256_1 bp))

/-- The ELU as the reference spells it: where `P > 0` keep `P`, elsewhere `1 · expm1 (P where not above zero, else 0)`. -/
def elu1 (P : FVec F S50000x256 .f32) : FVec F S50000x256 .f32 :=
  select (cmpf .ogt P (broadcastInDim S50000x256 ![] bcast_S_S50000x256 (constant S_ .f32 0x00000000#32))) P
    (mulf (broadcastInDim S50000x256 ![] bcast_S_S50000x256 (constant S_ .f32 0x3F800000#32))
      (Host.expm1
        (select (cmpf .ogt P (broadcastInDim S50000x256 ![] bcast_S_S50000x256 (constant S_ .f32 0x00000000#32)))
          (broadcastInDim S50000x256 ![] bcast_S_S50000x256 (id (constant S_ .f32 0x00000000#32))) P)))

/-- The first layer on every node. -/
def dense1 (M X : FVec F S50000x50 .f32) (Wl : FVec F S50x256 .f32) (b : FVec F S256 .f32) (Wr Wp : FVec F S50x256 .f32)
    (bp : FVec F S256 .f32) : FVec F S50000x256 .f32 :=
  elu1 (addf (norm1 (pre1 M X Wl b Wr)) (lin1 X Wp bp))

/-! ## The second layer -/

/-- `(M · Wl + b) + H · Wr` on every node. -/
def pre2 (M H : FVec F S50000x256 .f32) (Wl : FVec F S256x121 .f32) (b : FVec F S121 .f32) (Wr : FVec F S256x121 .f32) :
    FVec F S50000x121 .f32 :=
  addf
    (addf (Host.dotGeneral dot_S50000x256_S256x121_S50000x121_1_0_0_1_n_n none M Wl)
      (broadcastInDim S50000x121 ![0, 1] bcast_S1x121_S50000x121_0_1 (broadcastInDim S1x121 ![1] bcast_S121_S1x121_1 b)))
    (Host.dotGeneral dot_S50000x256_S256x121_S50000x121_1_0_0_1_n_n none H Wr)

/-- Each row divided by its length, the length floored at the small constant. -/
def norm2 (P : FVec F S50000x121 .f32) : FVec F S50000x121 .f32 :=
  Host.divf P
    (broadcastInDim S50000x121 ![0, 1] bcast_S50000x1_S50000x121_0_1
      (maximumf
        (Host.sqrt (broadcastInDim S50000x1 ![0] bcast_S50000_S50000x1_0
          (Host.reduceAdd (mulf P P) (constant S_ .f32 0x00000000#32) reducesTo_S50000x121_S50000_d1 h_S_)))
        (broadcastInDim S50000x1 ![] bcast_S_S50000x1 (constant S_ .f32 0x2B8CBCCC#32))))

/-- The parallel linear branch `H · Wp + bp`. -/
def lin2 (H : FVec F S50000x256 .f32) (Wp : FVec F S256x121 .f32) (bp : FVec F S121 .f32) : FVec F S50000x121 .f32 :=
  addf (Host.dotGeneral dot_S50000x256_S256x121_S50000x121_1_0_0_1_n_n none H Wp)
    (broadcastInDim S50000x121 ![0, 1] bcast_S1x121_S50000x121_0_1 (broadcastInDim S1x121 ![1] bcast_S121_S1x121_1 bp))

/-- The second layer on every node. -/
def dense2 (M H : FVec F S50000x256 .f32) (Wl : FVec F S256x121 .f32) (b : FVec F S121 .f32) (Wr Wp : FVec F S256x121 .f32)
    (bp : FVec F S121 .f32) : FVec F S50000x121 .f32 :=
  addf (norm2 (pre2 M H Wl b Wr)) (lin2 H Wp bp)

/-! ## The whole reference -/

/-- The hidden features. -/
def hidden (x : FVec F S50000x50 .f32) (e : IVec S2x800000 32) (w1l : FVec F S50x256 .f32) (b1 : FVec F S256 .f32)
    (w1r wl1 : FVec F S50x256 .f32) (bl1 : FVec F S256 .f32) : FVec F S50000x256 .f32 :=
  dense1 (mean50 x (idx0 e) (idx1 e)) x w1l b1 w1r wl1 bl1

/-- The reference's result as one function of its twelve arguments. -/
def refOut (x : FVec F S50000x50 .f32) (e : IVec S2x800000 32) (w1l : FVec F S50x256 .f32) (b1 : FVec F S256 .f32)
    (w1r wl1 : FVec F S50x256 .f32) (bl1 : FVec F S256 .f32) (w2l : FVec F S256x121 .f32) (b2 : FVec F S121 .f32)
    (w2r wl2 : FVec F S256x121 .f32) (bl2 : FVec F S121 .f32) : FVec F S50000x121 .f32 :=
  dense2 (mean256 (hidden x e w1l b1 w1r wl1 bl1) (idx0 e) (idx1 e)) (hidden x e w1l b1 w1r wl1 bl1) w2l b2 w2r wl2 bl2

end Cert.ReferenceIdeal.R

end
-- ==== Proof.RRun.lean ====
/-
  The reference program's run, read back: its @main is a straight line of host operations (the ELU's two helper functions
  unfolded where they are called), every weakly fair execution of it terminates, and the result buffer ends at the
  operations' composed term of the arguments, which is `R.refOut`; no operation writes an argument.
-/
import proofs.«160058_j62663572848802_1_alg».proof.Proof.RDefs
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the ELU's eleven own operations around `_where`'s three (the zero converted
    to its own type, its broadcast, the select) and `_where_0`'s one select, over the buffers of the call's record. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x50_S800000x1_S800000x50_1_0_n_n_0_1_150 x i) : (⟨S50000x50, .f32⟩ : BufTy).Contents (Elt F) → (⟨S800000x1, .i32⟩ : BufTy).Contents (Elt F) → (⟨S800000x50, .f32⟩ : BufTy).Contents (Elt F)),
    StableHlo.nullary main_cst (constant S_ .f32 0x00000000#32),
    StableHlo.unary main_cst main_v11 (broadcastInDim S50000x50 ![] bcast_S_S50000x50 : (⟨S_, .f32⟩ : BufTy).Contents (Elt F) → (⟨S50000x50, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x50_S800000x1_S800000x50_1_0_0_1 x i u) : (⟨S50000x50, .f32⟩ : BufTy).Contents (Elt F) → (⟨S800000x1, .i32⟩ : BufTy).Contents (Elt F) → (⟨S800000x50, .f32⟩ : BufTy).Contents (Elt F) → (⟨S50000x50, .f32⟩ : BufTy).Contents (Elt F)),
    StableHlo.nullary main_cst_1 (constant S_ .f32 0x3F800000#32),
    StableHlo.unary main_cst_1 main_v14 (broadcastInDim S800000x1 ![] bcast_S_S800000x1 : (⟨S_, .f32⟩ : BufTy).Contents (Elt F) → (⟨S800000x1, .f32⟩ : BufTy).Contents (Elt F)),
    StableHlo.nullary main_cst_2 (constant S_ .f32 0x00000000#32),
    StableHlo.unary main_cst_2 main_v15 (broadcastInDim S50000x1 ![] bcast_S_S50000x1 : (⟨S_, .f32⟩ : BufTy).Contents (Elt F) → (⟨S50000x1, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v14 main_v17 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.nullary main_cst_3 (constant S_ .f32 0x3F800000#32),
    StableHlo.unary main_cst_3 main_v18 (broadcastInDim S50000x1 ![] bcast_S_S50000x1 : (⟨S_, .f32⟩ : BufTy).Contents (Elt F) → (⟨S50000x1, .f32⟩ : BufTy).Contents (Elt F)),
    StableHlo.binary main_v17 main_v18 main_v19 (maximumf : (⟨S50000x1, .f32⟩ : BufTy).Contents (Elt F) → (⟨S50000x1, .f32⟩ : BufTy).Contents (Elt F) → (⟨S50000x1, .f32⟩ : BufTy).Contents (Elt F)),
    StableHlo.unary main_v19 main_v20 (broadcastInDim S50000x50 ![0, 1] bcast_S50000x1_S50000x50_0_1 : (⟨S50000x1, .f32⟩ : BufTy).Contents (Elt F) → (⟨S50000x50, .f32⟩ : BufTy).Contents (Elt F)),
    StableHlo.binary main_v13 main_v20 main_v21 (Host.divf : (⟨S50000x50, .f32⟩ : BufTy).Contents (Elt F) → (⟨S50000x50, .f32⟩ : BufTy).Contents (Elt F) → (⟨S50000x50, .f32⟩ : BufTy).Contents (Elt F)),
    StableHlo.binary main_v21 main_arg2 main_v22 ((fun l r => Host.dotGeneral dot_S50000x50_S50x256_S50000x256_1_0_0_1_n_n none l r) : (⟨S50000x50, .f32⟩ : BufTy).Contents (Elt F) → (⟨S50x256, .f32⟩ : BufTy).Contents (Elt F) → (⟨S50000x256, .f32⟩ : BufTy).Contents (Elt F)),
    StableHlo.unary main_arg3 main_v23 (broadcastInDim S1x256 ![1] bcast_S256_S1x256_1 : (⟨S256, .f32⟩ : BufTy).Contents (Elt F) → (⟨S1x256, .f32⟩ : BufTy).Contents (Elt F)),
    StableHlo.unary main_v23 main_v24 (broadcastInDim S50000x256 ![0, 1] bcast_S1x256_S50000x256_0_1 : (⟨S1x256, .f32⟩ : BufTy).Contents (Elt F) → (⟨S50000x256, .f32⟩ : BufTy).Contents (Elt F)),
    StableHlo.binary main_v22 main_v24 main_v25 (addf : (⟨S50000x256, .f32⟩ : BufTy).Contents (Elt F) → (⟨S50000x256, .f32⟩ : BufTy).Contents (Elt F) → (⟨S50000x256, .f32⟩ : BufTy).Contents (Elt F)),
    StableHlo.binary main_arg0 main_arg4 main_v26 ((fun l r => Host.dotGeneral dot_S50000x50_S50x256_S50000x256_1_0_0_1_n_n none l r) : (⟨S50000x50, .f32⟩ : BufTy).Contents (Elt F) → (⟨S50x256, .f32⟩ : BufTy).Contents (Elt F) → (⟨S50000x256, .f32⟩ : BufTy).Contents (Elt F)),
    StableHlo.binary main_v25 main_v26 main_v27 (addf : (⟨S50000x256, .f32⟩ : BufTy).Contents (Elt F) → (⟨S50000x256, .f32⟩ : BufTy).Contents (Elt F) → (⟨S50000x256, .f32⟩ : BufTy).Contents (Elt F)),
    StableHlo.binary main_v27 main_v27 main_v28 (mulf : (⟨S50000x256, .f32⟩ : BufTy).Contents (Elt F) → (⟨S50000x256, .f32⟩ : BufTy).Contents (Elt F) → (⟨S50000x256, .f32⟩ : BufTy).Contents (Elt F)),
    StableHlo.nullary main_cst_4 (constant S_ .f32 0x00000000#32),
    StableHlo.binary main_v28 main_cst_4 main_v29 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v29 main_v30 (broadcastInDim S50000x1 ![0] bcast_S50000_S50000x1_0 : (⟨S50000, .f32⟩ : BufTy).Contents (Elt F) → (⟨S50000x1, .f32⟩ : BufTy).Contents (Elt F)),
    StableHlo.unary main_v30 main_v31 (Host.sqrt : (⟨S50000x1, .f32⟩ : BufTy).Contents (Elt F) → (⟨S50000x1, .f32⟩ : BufTy).Contents (Elt F)),
    StableHlo.nullary main_cst_5 (constant S_ .f32 0x2B8CBCCC#32),
    StableHlo.unary main_cst_5 main_v32 (broadcastInDim S50000x1 ![] bcast_S_S50000x1 : (⟨S_, .f32⟩ : BufTy).Contents (Elt F) → (⟨S50000x1, .f32⟩ : BufTy).Contents (Elt F)),
    StableHlo.binary main_v31 main_v32 main_v33 (maximumf : (⟨S50000x1, .f32⟩ : BufTy).Contents (Elt F) → (⟨S50000x1, .f32⟩ : BufTy).Contents (Elt F) → (⟨S50000x1, .f32⟩ : BufTy).Contents (Elt F)),
    StableHlo.unary main_v33 main_v34 (broadcastInDim S50000x256 ![0, 1] bcast_S50000x1_S50000x256_0_1 : (⟨S50000x1, .f32⟩ : BufTy).Contents (Elt F) → (⟨S50000x256, .f32⟩ : BufTy).Contents (Elt F)),
    StableHlo.binary main_v27 main_v34 main_v35 (Host.divf : (⟨S50000x256, .f32⟩ : BufTy).Contents (Elt F) → (⟨S50000x256, .f32⟩ : BufTy).Contents (Elt F) → (⟨S50000x256, .f32⟩ : BufTy).Contents (Elt F)),
    StableHlo.binary main_arg0 main_arg5 main_v36 ((fun l r => Host.dotGeneral dot_S50000x50_S50x256_S50000x256_1_0_0_1_n_n none l r) : (⟨S50000x50, .f32⟩ : BufTy).Contents (Elt F) → (⟨S50x256, .f32⟩ : BufTy).Contents (Elt F) → (⟨S50000x256, .f32⟩ : BufTy).Contents (Elt F)),
    StableHlo.unary main_arg6 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S50000x256 ![0, 1] bcast_S1x256_S50000x256_0_1 : (⟨S1x256, .f32⟩ : BufTy).Contents (Elt F) → (⟨S50000x256, .f32⟩ : BufTy).Contents (Elt F)),
    StableHlo.binary main_v36 main_v38 main_v39 (addf : (⟨S50000x256, .f32⟩ : BufTy).Contents (Elt F) → (⟨S50000x256, .f32⟩ : BufTy).Contents (Elt F) → (⟨S50000x256, .f32⟩ : BufTy).Contents (Elt F)),
    StableHlo.binary main_v35 main_v39 main_v40 (addf : (⟨S50000x256, .f32⟩ : BufTy).Contents (Elt F) → (⟨S50000x256, .f32⟩ : BufTy).Contents (Elt F) → (⟨S50000x256, .f32⟩ : BufTy).Contents (Elt F)),
    StableHlo.TRef.nullary main_call0.cst (constant S_ .f32 0x00000000#32),
    StableHlo.TRef.unary main_call0.cst main_call0.v0 (broadcastInDim S50000x256 ![] bcast_S_S50000x256),
    StableHlo.TRef.binary (.of main_v40) main_call0.v0 main_call0.v1 (cmpf .ogt),
    StableHlo.TRef.nullary main_call0.cst_0 (constant S_ .f32 0x00000000#32),
    StableHlo.TRef.unary main_call0.cst_0 main_call0.v2 (broadcastInDim S50000x256 ![] bcast_S_S50000x256),
    StableHlo.TRef.binary (.of main_v40) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S50000x256 ![] bcast_S_S50000x256),
    StableHlo.TRef.ternary main_call0.v3 main_call0.call0.v1 (.of main_v40) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S50000x256 ![] bcast_S_S50000x256),
    StableHlo.TRef.binary main_call0.v6 main_call0.v5 main_call0.v7 mulf,
    StableHlo.TRef.ternary main_call0.v1 (.of main_v40) main_call0.v7 main_call0.call1.v0 select,
    StableHlo.nullary main_c_6 (constantI S_ 32 0#32),
    StableHlo.unary main_c_6 main_v42 (broadcastInDim S800000 ![] bcast_S_S800000 : (⟨S_, .i32⟩ : BufTy).Contents (Elt F) → (⟨S800000, .i32⟩ : BufTy).Contents (Elt F)),
    StableHlo.binary main_v1 main_v42 main_v43 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v44 (broadcastInDim S800000 ![] bcast_S_S800000 : (⟨S_, .i32⟩ : BufTy).Contents (Elt F) → (⟨S800000, .i32⟩ : BufTy).Contents (Elt F)),
    StableHlo.binary main_v1 main_v44 main_v45 (addi : (⟨S800000, .i32⟩ : BufTy).Contents (Elt F) → (⟨S800000, .i32⟩ : BufTy).Contents (Elt F) → (⟨S800000, .i32⟩ : BufTy).Contents (Elt F)),
    StableHlo.ternary main_v43 main_v45 main_v1 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v46 main_v47 (broadcastInDim S800000x1 ![0] bcast_S800000_S800000x1_0 : (⟨S800000, .i32⟩ : BufTy).Contents (Elt F) → (⟨S800000x1, .i32⟩ : BufTy).Contents (Elt F)),
    StableHlo.binary main_v41 main_v47 main_v48 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_8 (constant S_ .f32 0x00000000#32),
    StableHlo.unary main_cst_8 main_v49 (broadcastInDim S50000x256 ![] bcast_S_S50000x256 : (⟨S_, .f32⟩ : BufTy).Contents (Elt F) → (⟨S50000x256, .f32⟩ : BufTy).Contents (Elt F)),
    StableHlo.unary main_v3 main_v50 (broadcastInDim S800000x1 ![0] bcast_S800000_S800000x1_0 : (⟨S800000, .i32⟩ : BufTy).Contents (Elt F) → (⟨S800000x1, .i32⟩ : BufTy).Contents (Elt F)),
    StableHlo.ternary main_v49 main_v50 main_v48 main_v51 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_9 (constant S_ .f32 0x3F800000#32),
    StableHlo.unary main_cst_9 main_v52 (broadcastInDim S800000x1 ![] bcast_S_S800000x1 : (⟨S_, .f32⟩ : BufTy).Contents (Elt F) → (⟨S800000x1, .f32⟩ : BufTy).Contents (Elt F)),
    StableHlo.nullary main_cst_10 (constant S_ .f32 0x00000000#32),
    StableHlo.unary main_cst_10 main_v53 (broadcastInDim S50000x1 ![] bcast_S_S50000x1 : (⟨S_, .f32⟩ : BufTy).Contents (Elt F) → (⟨S50000x1, .f32⟩ : BufTy).Contents (Elt F)),
    StableHlo.unary main_v3 main_v54 (broadcastInDim S800000x1 ![0] bcast_S800000_S800000x1_0 : (⟨S800000, .i32⟩ : BufTy).Contents (Elt F) → (⟨S800000x1, .i32⟩ : BufTy).Contents (Elt F)),
    StableHlo.ternary main_v53 main_v54 main_v52 main_v55 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.nullary main_cst_11 (constant S_ .f32 0x3F800000#32),
    StableHlo.unary main_cst_11 main_v56 (broadcastInDim S50000x1 ![] bcast_S_S50000x1 : (⟨S_, .f32⟩ : BufTy).Contents (Elt F) → (⟨S50000x1, .f32⟩ : BufTy).Contents (Elt F)),
    StableHlo.binary main_v55 main_v56 main_v57 (maximumf : (⟨S50000x1, .f32⟩ : BufTy).Contents (Elt F) → (⟨S50000x1, .f32⟩ : BufTy).Contents (Elt F) → (⟨S50000x1, .f32⟩ : BufTy).Contents (Elt F)),
    StableHlo.unary main_v57 main_v58 (broadcastInDim S50000x256 ![0, 1] bcast_S50000x1_S50000x256_0_1 : (⟨S50000x1, .f32⟩ : BufTy).Contents (Elt F) → (⟨S50000x256, .f32⟩ : BufTy).Contents (Elt F)),
    StableHlo.binary main_v51 main_v58 main_v59 (Host.divf : (⟨S50000x256, .f32⟩ : BufTy).Contents (Elt F) → (⟨S50000x256, .f32⟩ : BufTy).Contents (Elt F) → (⟨S50000x256, .f32⟩ : BufTy).Contents (Elt F)),
    StableHlo.binary main_v59 main_arg7 main_v60 ((fun l r => Host.dotGeneral dot_S50000x256_S256x121_S50000x121_1_0_0_1_n_n none l r) : (⟨S50000x256, .f32⟩ : BufTy).Contents (Elt F) → (⟨S256x121, .f32⟩ : BufTy).Contents (Elt F) → (⟨S50000x121, .f32⟩ : BufTy).Contents (Elt F)),
    StableHlo.unary main_arg8 main_v61 (broadcastInDim S1x121 ![1] bcast_S121_S1x121_1 : (⟨S121, .f32⟩ : BufTy).Contents (Elt F) → (⟨S1x121, .f32⟩ : BufTy).Contents (Elt F)),
    StableHlo.unary main_v61 main_v62 (broadcastInDim S50000x121 ![0, 1] bcast_S1x121_S50000x121_0_1 : (⟨S1x121, .f32⟩ : BufTy).Contents (Elt F) → (⟨S50000x121, .f32⟩ : BufTy).Contents (Elt F)),
    StableHlo.binary main_v60 main_v62 main_v63 (addf : (⟨S50000x121, .f32⟩ : BufTy).Contents (Elt F) → (⟨S50000x121, .f32⟩ : BufTy).Contents (Elt F) → (⟨S50000x121, .f32⟩ : BufTy).Contents (Elt F)),
    StableHlo.binary main_v41 main_arg9 main_v64 ((fun l r => Host.dotGeneral dot_S50000x256_S256x121_S50000x121_1_0_0_1_n_n none l r) : (⟨S50000x256, .f32⟩ : BufTy).Contents (Elt F) → (⟨S256x121, .f32⟩ : BufTy).Contents (Elt F) → (⟨S50000x121, .f32⟩ : BufTy).Contents (Elt F)),
    StableHlo.binary main_v63 main_v64 main_v65 (addf : (⟨S50000x121, .f32⟩ : BufTy).Contents (Elt F) → (⟨S50000x121, .f32⟩ : BufTy).Contents (Elt F) → (⟨S50000x121, .f32⟩ : BufTy).Contents (Elt F)),
    StableHlo.binary main_v65 main_v65 main_v66 (mulf : (⟨S50000x121, .f32⟩ : BufTy).Contents (Elt F) → (⟨S50000x121, .f32⟩ : BufTy).Contents (Elt F) → (⟨S50000x121, .f32⟩ : BufTy).Contents (Elt F)),
    StableHlo.nullary main_cst_12 (constant S_ .f32 0x00000000#32),
    StableHlo.binary main_v66 main_cst_12 main_v67 ((fun x v => Host.reduceAdd x v reducesTo_S50000x121_S50000_d1 h_S_) : (⟨S50000x121, .f32⟩ : BufTy).Contents (Elt F) → (⟨S_, .f32⟩ : BufTy).Contents (Elt F) → (⟨S50000, .f32⟩ : BufTy).Contents (Elt F)),
    StableHlo.unary main_v67 main_v68 (broadcastInDim S50000x1 ![0] bcast_S50000_S50000x1_0 : (⟨S50000, .f32⟩ : BufTy).Contents (Elt F) → (⟨S50000x1, .f32⟩ : BufTy).Contents (Elt F)),
    StableHlo.unary main_v68 main_v69 (Host.sqrt : (⟨S50000x1, .f32⟩ : BufTy).Contents (Elt F) → (⟨S50000x1, .f32⟩ : BufTy).Contents (Elt F)),
    StableHlo.nullary main_cst_13 (constant S_ .f32 0x2B8CBCCC#32),
    StableHlo.unary main_cst_13 main_v70 (broadcastInDim S50000x1 ![] bcast_S_S50000x1 : (⟨S_, .f32⟩ : BufTy).Contents (Elt F) → (⟨S50000x1, .f32⟩ : BufTy).Contents (Elt F)),
    StableHlo.binary main_v69 main_v70 main_v71 (maximumf : (⟨S50000x1, .f32⟩ : BufTy).Contents (Elt F) → (⟨S50000x1, .f32⟩ : BufTy).Contents (Elt F) → (⟨S50000x1, .f32⟩ : BufTy).Contents (Elt F)),
    StableHlo.unary main_v71 main_v72 (broadcastInDim S50000x121 ![0, 1] bcast_S50000x1_S50000x121_0_1 : (⟨S50000x1, .f32⟩ : BufTy).Contents (Elt F) → (⟨S50000x121, .f32⟩ : BufTy).Contents (Elt F)),
    StableHlo.binary main_v65 main_v72 main_v73 (Host.divf : (⟨S50000x121, .f32⟩ : BufTy).Contents (Elt F) → (⟨S50000x121, .f32⟩ : BufTy).Contents (Elt F) → (⟨S50000x121, .f32⟩ : BufTy).Contents (Elt F)),
    StableHlo.binary main_v41 main_arg10 main_v74 ((fun l r => Host.dotGeneral dot_S50000x256_S256x121_S50000x121_1_0_0_1_n_n none l r) : (⟨S50000x256, .f32⟩ : BufTy).Contents (Elt F) → (⟨S256x121, .f32⟩ : BufTy).Contents (Elt F) → (⟨S50000x121, .f32⟩ : BufTy).Contents (Elt F)),
    StableHlo.unary main_arg11 main_v75 (broadcastInDim S1x121 ![1] bcast_S121_S1x121_1 : (⟨S121, .f32⟩ : BufTy).Contents (Elt F) → (⟨S1x121, .f32⟩ : BufTy).Contents (Elt F)),
    StableHlo.unary main_v75 main_v76 (broadcastInDim S50000x121 ![0, 1] bcast_S1x121_S50000x121_0_1 : (⟨S1x121, .f32⟩ : BufTy).Contents (Elt F) → (⟨S50000x121, .f32⟩ : BufTy).Contents (Elt F)),
    StableHlo.binary main_v74 main_v76 main_v77 (addf : (⟨S50000x121, .f32⟩ : BufTy).Contents (Elt F) → (⟨S50000x121, .f32⟩ : BufTy).Contents (Elt F) → (⟨S50000x121, .f32⟩ : BufTy).Contents (Elt F)),
    StableHlo.binary main_v73 main_v77 main_v78 (addf : (⟨S50000x121, .f32⟩ : BufTy).Contents (Elt F) → (⟨S50000x121, .f32⟩ : BufTy).Contents (Elt F) → (⟨S50000x121, .f32⟩ : BufTy).Contents (Elt F)) ]

set_option maxHeartbeats 40000000 in
set_option maxRecDepth 8192 in
/-- @main is that straight line: with the helper functions unfolded at their calls, both sides are one chain of steps
    once sequencing is reassociated, and sequencing reassociates by computation on a chain of steps. -/
theorem main_eq (c : Dev nD) : main (F := F) c = seq ops := by
  rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide
/-- Every operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., unary_bufs_sub .., binary_bufs_sub .., binary_bufs_sub ..⟩

set_option maxHeartbeats 8000000 in
set_option maxRecDepth 16384 in
/-- The fold at the result buffer is `R.refOut` of the arguments' contents: each operation's result read at its own
    buffer is its function's value, at any other buffer what was there, and the composed term is `R.refOut` unfolded. -/
theorem result_eq_refOut (V : Valuation τ sig (Elt F)) :
    after ops V (Proc.devRef .tc main_v78) = R.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  after_results_simp
  rfl

/-- The buffers the operations write, in order: one per operation, none of them an argument's. -/
abbrev written : List (Ref sig .tc) :=
  [ main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_v28, main_cst_4, main_v29, main_v30, main_v31, main_cst_5, main_v32, main_v33, main_v34, main_v35, main_v36, main_v37, main_v38, main_v39, main_v40, main_call0.cst.ref, main_call0.v0.ref, main_call0.v1.ref, main_call0.cst_0.ref, main_call0.v2.ref, main_call0.v3.ref, main_call0.cst_1.ref, main_call0.call0.v0.ref, main_call0.call0.v1.ref, main_call0.call0.v2.ref, main_call0.v5.ref, main_call0.cst_2.ref, main_call0.v6.ref, main_call0.v7.ref, main_call0.call1.v0.ref, main_c_6, main_v42, main_v43, main_c_7, main_v44, main_v45, main_v46, main_v47, main_v48, main_cst_8, main_v49, main_v50, main_v51, main_cst_9, main_v52, main_cst_10, main_v53, main_v54, main_v55, main_cst_11, main_v56, main_v57, main_v58, main_v59, main_v60, main_v61, main_v62, main_v63, main_v64, main_v65, main_v66, main_cst_12, main_v67, main_v68, main_v69, main_cst_13, main_v70, main_v71, main_v72, main_v73, main_v74, main_v75, main_v76, main_v77, main_v78 ]

set_option maxHeartbeats 4000000 in
set_option maxRecDepth 16384 in
/-- Each operation writes only its own result buffer, which is in the list. -/
theorem writes_sub : (ops : List (HloOp τ sig (Elt F))).Forall fun op =>
    op.writes ⊆ (written.map (Proc.devRef (τ := τ) .tc)).toFinset := by
  simp only [ops, List.Forall, nullary_writes, unary_writes, binary_writes, ternary_writes, reshape_writes]
  repeat' apply And.intro
  all_goals exact Finset.singleton_subset_iff.mpr (List.mem_toFinset.mpr (List.mem_map.mpr ⟨_, by decide, rfl⟩))

/-- A buffer no operation writes holds after the whole line what it held before. -/
theorem after_unwritten (V : Valuation τ sig (Elt F)) {r : Ref sig .tc} (hr : r ∉ written) :
    after ops V (Proc.devRef .tc r) = V (Proc.devRef .tc r) :=
  after_of_writes_sub ops V writes_sub hr

/-- Every weakly fair execution of the reference terminates with the result at `R.refOut` of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = R.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v78).trans (result_eq_refOut _),
      (h c main_arg0).trans (after_unwritten _ (by decide)),
      (h c main_arg1).trans (after_unwritten _ (by decide)),
      (h c main_arg2).trans (after_unwritten _ (by decide)),
      (h c main_arg3).trans (after_unwritten _ (by decide)),
      (h c main_arg4).trans (after_unwritten _ (by decide)),
      (h c main_arg5).trans (after_unwritten _ (by decide)),
      (h c main_arg6).trans (after_unwritten _ (by decide)),
      (h c main_arg7).trans (after_unwritten _ (by decide)),
      (h c main_arg8).trans (after_unwritten _ (by decide)),
      (h c main_arg9).trans (after_unwritten _ (by decide)),
      (h c main_arg10).trans (after_unwritten _ (by decide)),
      (h c main_arg11).trans (after_unwritten _ (by decide))⟩)
    (run_seq scopedRefs_eq scopedSems_eq defs main (fun _ => ops) main_eq (fun _ => ops_sub) m ρ)

end Cert.ReferenceIdeal.RRun

end
-- ==== Proof.RVal.lean ====
/-
  The reference's two dense layers, read at an index.

  On the host a `dot_general` with one contracted axis is the plain sum of products over it, the row sum of squares is
  zero plus the plain sum over the columns, and the broadcasts only re-index, so at node `r` and feature `j` the first
  layer's chain of operations is `Sage.rowElu` of rows `r` of its two inputs and the second layer's `Sage.rowOut`.  The
  ELU is spelt `select (P > 0) P (1 · expm1 (select (P > 0) 0 P))`: `Sage.elu_of_expm1`.
-/
import proofs.«160058_j62663572848802_1_alg».proof.Proof.RDefs
import proofs.«160058_j62663572848802_1_alg».proof.Proof.Final
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

namespace Cert.ReferenceIdeal.RVal

open Cert.ReferenceIdeal Cert.ReferenceIdeal.Gen Idealize.ShloMosaic Idealize.ShloMosaic.ValueIdx

/-! ## The two products -/

/-- The first layer's contraction record is the plain rows-by-columns product's. -/
theorem dot50_eq_plain : dot_S50000x50_S50x256_S50000x256_1_0_0_1_n_n = DotDims.plain 50000 50 256 := rfl

/-- The second layer's contraction record is the plain rows-by-columns product's. -/
theorem dot256_eq_plain : dot_S50000x256_S256x121_S50000x121_1_0_0_1_n_n = DotDims.plain 50000 256 121 := rfl

/-- The [50000, 50] by [50, 256] product at node `r`, feature `j`: the sum over the 50 contracted coordinates. -/
theorem dot50_apply (A : FVec Ideal S50000x50 .f32) (B : FVec Ideal S50x256 .f32) (r : Fin 50000) (j : Fin 256) :
    Host.dotGeneral (F := Ideal) dot_S50000x50_S50x256_S50000x256_1_0_0_1_n_n none A B (ix2 r j)
      = ∑ k : Fin 50, A (ix2 r k) * B (ix2 k j) := by
  rw [dot50_eq_plain]
  exact StackMember.dotGeneral_plain_apply none A B r j

/-- The [50000, 256] by [256, 121] product at node `r`, feature `j`: the sum over the 256 contracted coordinates. -/
theorem dot256_apply (A : FVec Ideal S50000x256 .f32) (B : FVec Ideal S256x121 .f32) (r : Fin 50000) (j : Fin 121) :
    Host.dotGeneral (F := Ideal) dot_S50000x256_S256x121_S50000x121_1_0_0_1_n_n none A B (ix2 r j)
      = ∑ k : Fin 256, A (ix2 r k) * B (ix2 k j) := by
  rw [dot256_eq_plain]
  exact StackMember.dotGeneral_plain_apply none A B r j

/-! ## The pointwise host operations at an index -/

/-- The host's square root at an index is the ideal square root of the element. -/
theorem hostSqrt_apply {s : Shape} (a : FVec Ideal s .f32) (i : s.Idx) : Host.sqrt a i = Ideal.sqrt (a i) := rfl

/-- The host's `expm1` at an index is the ideal exponential of the element, less one. -/
theorem hostExpm1_apply {s : Shape} (a : FVec Ideal s .f32) (i : s.Idx) : Host.expm1 a i = Ideal.exp (a i) - 1 := rfl

/-! ## The broadcasts and the row sum at an index, for any number of rows and of features -/

section AnySize
variable {m N : ℕ}

/-- A vector laid along every row reads its entry at the column. -/
theorem bias_apply (h1 : (⟨1, ![N]⟩ : Shape).BroadcastsInDim ⟨2, ![1, N]⟩ ![1])
    (h2 : (⟨2, ![1, N]⟩ : Shape).BroadcastsInDim ⟨2, ![m, N]⟩ ![0, 1]) (b : FVec Ideal ⟨1, ![N]⟩ .f32) (r : Fin m) (j : Fin N) :
    broadcastInDim ⟨2, ![m, N]⟩ ![0, 1] h2 (broadcastInDim ⟨2, ![1, N]⟩ ![1] h1 b) (ix2 r j) = b (ix1 j) := by
  rw [broadcastInDim_apply ![0, 1] h2 _ (ix2 r j) (ix2 (0 : Fin 1) j) (by
    intro a
    match a with
    | ⟨0, _⟩ => rfl
    | ⟨1, _⟩ =>
      show j.val = if N = 1 then 0 else j.val
      split_ifs with hN
      · have := j.isLt; omega
      · rfl)]
  rw [broadcastInDim_apply ![1] h1 b (ix2 (0 : Fin 1) j) (ix1 j) (by
    intro a
    match a with
    | ⟨0, _⟩ =>
      show j.val = if N = 1 then 0 else j.val
      split_ifs with hN
      · have := j.isLt; omega
      · rfl)]

/-- A column laid along the features reads the row's entry of the column. -/
theorem col_apply (h : (⟨2, ![m, 1]⟩ : Shape).BroadcastsInDim ⟨2, ![m, N]⟩ ![0, 1]) (v : FVec Ideal ⟨2, ![m, 1]⟩ .f32)
    (r : Fin m) (j : Fin N) :
    broadcastInDim ⟨2, ![m, N]⟩ ![0, 1] h v (ix2 r j) = v (ix2 r (0 : Fin 1)) :=
  broadcastInDim_apply ![0, 1] h v (ix2 r j) (ix2 r (0 : Fin 1)) (by
    intro a
    match a with
    | ⟨0, _⟩ =>
      show r.val = if m = 1 then 0 else r.val
      split_ifs with hm
      · have := r.isLt; omega
      · rfl
    | ⟨1, _⟩ => rfl)

/-- One value per row stood up as a column reads the row's value. -/
theorem tocol_apply (h : (⟨1, ![m]⟩ : Shape).BroadcastsInDim ⟨2, ![m, 1]⟩ ![0]) (u : FVec Ideal ⟨1, ![m]⟩ .f32) (r : Fin m) :
    broadcastInDim ⟨2, ![m, 1]⟩ ![0] h u (ix2 r (0 : Fin 1)) = u (ix1 r) :=
  broadcastInDim_apply ![0] h u (ix2 r (0 : Fin 1)) (ix1 r) (by
    intro a
    match a with
    | ⟨0, _⟩ =>
      show r.val = if m = 1 then 0 else r.val
      split_ifs with hm
      · have := r.isLt; omega
      · rfl)

/-- The sum along the features from the zero word, at a row: the plain sum over the row. -/
theorem rowsum_apply (h' : (⟨2, ![m, N]⟩ : Shape).ReducesTo [1] ⟨1, ![m]⟩) (h : (⟨2, ![m, N]⟩ : Shape).Reduces [1] ⟨1, ![m]⟩)
    (hu : 0 < S_.numel) (x : FVec Ideal ⟨2, ![m, N]⟩ .f32) (r : Fin m) :
    Host.reduceAdd (F := Ideal) x (constant (F := Ideal) S_ .f32 0x00000000#32) h' hu (ix1 r) = ∑ n : Fin N, x (ix2 r n) := by
  rw [hostReduceAdd_apply, constant_apply, Ideal.hostReduceAdd_single h' h, Ideal.ofBits_zero_f32, zero_add]
  refine Finset.sum_congr rfl fun n _ => congrArg x ?_
  funext ax; apply Fin.ext
  match ax with
  | ⟨0, _⟩ => rfl
  | ⟨1, _⟩ => rfl

end AnySize

/-! ## The first layer at an index -/

/-- The first layer's pre-activation at node `r`, feature `j` is `Sage.pre` of rows `r`. -/
theorem pre1_ix (M X : FVec Ideal S50000x50 .f32) (Wl : FVec Ideal S50x256 .f32) (b : FVec Ideal S256 .f32)
    (Wr : FVec Ideal S50x256 .f32) (r : Fin 50000) (j : Fin 256) :
    R.pre1 (F := Ideal) M X Wl b Wr (ix2 r j)
      = Sage.pre (fun k : Fin 50 => M (ix2 r k)) (fun k : Fin 50 => X (ix2 r k)) (fun (k : Fin 50) (n : Fin 256) => Wl (ix2 k n))
          (fun n => b (ix1 n)) (fun (k : Fin 50) (n : Fin 256) => Wr (ix2 k n)) j := by
  unfold R.pre1
  rw [addf_apply, addf_apply, dot50_apply, dot50_apply, bias_apply (m := 50000) (N := 256) _ _ b r j]
  rfl

/-- The first layer's row normalisation at node `r`, feature `j`: the entry over the row's floored length. -/
theorem norm1_ix (P : FVec Ideal S50000x256 .f32) (r : Fin 50000) (j : Fin 256) :
    R.norm1 (F := Ideal) P (ix2 r j)
      = Ideal.div (P (ix2 r j)) (max (Ideal.sqrt (∑ n : Fin 256, P (ix2 r n) * P (ix2 r n))) Sage.eps) := by
  unfold R.norm1
  rw [hostDivf_apply, col_apply (m := 50000) (N := 256) _ _ r j, maximumf_apply, hostSqrt_apply,
    tocol_apply (m := 50000) _ _ r, rowsum_apply (m := 50000) (N := 256) _ (by decide) _ _ r,
    broadcastInDim_scalar_apply, constant_apply]
  rfl

/-- The first layer's linear branch at node `r`, feature `j` is `Sage.lin` of row `r`. -/
theorem lin1_ix (X : FVec Ideal S50000x50 .f32) (Wp : FVec Ideal S50x256 .f32) (bp : FVec Ideal S256 .f32)
    (r : Fin 50000) (j : Fin 256) :
    R.lin1 (F := Ideal) X Wp bp (ix2 r j)
      = Sage.lin (fun k : Fin 50 => X (ix2 r k)) (fun (k : Fin 50) (n : Fin 256) => Wp (ix2 k n)) (fun n => bp (ix1 n)) j := by
  unfold R.lin1
  rw [addf_apply, dot50_apply, bias_apply (m := 50000) (N := 256) _ _ bp r j]
  rfl

/-- The reference's spelling of the ELU at an index is `Sage.elu` of the entry. -/
theorem elu1_ix (Q : FVec Ideal S50000x256 .f32) (r : Fin 50000) (j : Fin 256) :
    R.elu1 (F := Ideal) Q (ix2 r j) = Sage.elu (Q (ix2 r j)) := by
  unfold R.elu1
  simp only [select_apply, cmpf_apply, mulf_apply, hostExpm1_apply, broadcastInDim_scalar_apply, constant_apply, id_eq]
  exact Sage.elu_of_expm1 (Q (ix2 r j)) _ _ Ideal.ofBits_one_f32 Ideal.ofBits_zero_f32

/-- The first layer's host chain is `Sage.dense1`. -/
theorem dense1_eq (M X : FVec Ideal S50000x50 .f32) (Wl : FVec Ideal S50x256 .f32) (b : FVec Ideal S256 .f32)
    (Wr Wp : FVec Ideal S50x256 .f32) (bp : FVec Ideal S256 .f32) :
    R.dense1 (F := Ideal) M X Wl b Wr Wp bp
      = Sage.dense1 M X Wl (fun n => b (ix1 n)) Wr Wp (fun n => bp (ix1 n)) := by
  funext i
  obtain ⟨r, j, rfl⟩ : ∃ (r : Fin 50000) (j : Fin 256), i = ix2 r j := ⟨i 0, i 1, eq_ix2 i⟩
  unfold R.dense1
  rw [elu1_ix, addf_apply, norm1_ix, lin1_ix]
  simp only [pre1_ix]
  rfl

/-! ## The second layer at an index -/

/-- The second layer's pre-activation at node `r`, feature `j` is `Sage.pre` of rows `r`. -/
theorem pre2_ix (M H : FVec Ideal S50000x256 .f32) (Wl : FVec Ideal S256x121 .f32) (b : FVec Ideal S121 .f32)
    (Wr : FVec Ideal S256x121 .f32) (r : Fin 50000) (j : Fin 121) :
    R.pre2 (F := Ideal) M H Wl b Wr (ix2 r j)
      = Sage.pre (fun k : Fin 256 => M (ix2 r k)) (fun k : Fin 256 => H (ix2 r k)) (fun (k : Fin 256) (n : Fin 121) => Wl (ix2 k n))
          (fun n => b (ix1 n)) (fun (k : Fin 256) (n : Fin 121) => Wr (ix2 k n)) j := by
  unfold R.pre2
  rw [addf_apply, addf_apply, dot256_apply, dot256_apply, bias_apply (m := 50000) (N := 121) _ _ b r j]
  rfl

/-- The second layer's row normalisation at node `r`, feature `j`: the entry over the row's floored length. -/
theorem norm2_ix (P : FVec Ideal S50000x121 .f32) (r : Fin 50000) (j : Fin 121) :
    R.norm2 (F := Ideal) P (ix2 r j)
      = Ideal.div (P (ix2 r j)) (max (Ideal.sqrt (∑ n : Fin 121, P (ix2 r n) * P (ix2 r n))) Sage.eps) := by
  unfold R.norm2
  rw [hostDivf_apply, col_apply (m := 50000) (N := 121) _ _ r j, maximumf_apply, hostSqrt_apply,
    tocol_apply (m := 50000) _ _ r, rowsum_apply (m := 50000) (N := 121) _ (by decide) _ _ r,
    broadcastInDim_scalar_apply, constant_apply]
  rfl

/-- The second layer's linear branch at node `r`, feature `j` is `Sage.lin` of row `r`. -/
theorem lin2_ix (H : FVec Ideal S50000x256 .f32) (Wp : FVec Ideal S256x121 .f32) (bp : FVec Ideal S121 .f32)
    (r : Fin 50000) (j : Fin 121) :
    R.lin2 (F := Ideal) H Wp bp (ix2 r j)
      = Sage.lin (fun k : Fin 256 => H (ix2 r k)) (fun (k : Fin 256) (n : Fin 121) => Wp (ix2 k n)) (fun n => bp (ix1 n)) j := by
  unfold R.lin2
  rw [addf_apply, dot256_apply, bias_apply (m := 50000) (N := 121) _ _ bp r j]
  rfl

/-- The second layer's host chain is `Sage.dense2`. -/
theorem dense2_eq (M H : FVec Ideal S50000x256 .f32) (Wl : FVec Ideal S256x121 .f32) (b : FVec Ideal S121 .f32)
    (Wr Wp : FVec Ideal S256x121 .f32) (bp : FVec Ideal S121 .f32) :
    R.dense2 (F := Ideal) M H Wl b Wr Wp bp
      = Sage.dense2 M H Wl (fun n => b (ix1 n)) Wr Wp (fun n => bp (ix1 n)) := by
  funext i
  obtain ⟨r, j, rfl⟩ : ∃ (r : Fin 50000) (j : Fin 121), i = ix2 r j := ⟨i 0, i 1, eq_ix2 i⟩
  unfold R.dense2
  rw [addf_apply, norm2_ix, lin2_ix]
  simp only [pre2_ix]
  rfl

end Cert.ReferenceIdeal.RVal

end
-- ==== Proof.lean ====
/-
  A two-layer GraphSAGE network (mean aggregation over an edge list, L2 row normalisation, a parallel linear branch per
  layer, ELU between the layers) as a program with two fused dense kernels, against the same network in plain array
  operations: the two end with equal results on the extended reals.

  Both programs aggregate with the same host operations (a gather of the source rows, a scatter-add into the destination
  rows, a division by the floored in-degree); they differ in the dense part.  The kernels compute, 2000 nodes at a time,
  `normed (M·Wl + b + X·Wr) + (X·Wp + bp)` (and its ELU in the first layer) with the three products as matrix units'
  sums into zero and the row's squared length as a lane sum; the reference computes the same rows on all 50000 nodes at
  once with host dot products and a host row sum, and spells the ELU `where (p > 0) p (1 · expm1 (where (p > 0) 0 p))`.
  At the exact values a change of float format is the identity and each of these sums is the plain sum in the same order,
  so row by row both are `Sage.rowElu` / `Sage.rowOut` (Proof/Spec.lean) of the same rows, and both results are
  `Sage.network` (Proof/Final.lean) of the twelve arguments.  No law that needs finiteness is used: the precondition is
  never opened.

  The three frames: the two kernel programs' are their generated frame certificates; the reference's is its run with the
  result dropped.  The idealisation rewrote nothing, so `preserves` is `True`.
-/
import proofs.«160058_j62663572848802_1_alg».proof.Defs
import proofs.«160058_j62663572848802_1_alg».proof.Proof.Gen.Kernel
import proofs.«160058_j62663572848802_1_alg».proof.Proof.Gen.Kernel.Frame
import proofs.«160058_j62663572848802_1_alg».proof.Proof.Gen.KernelIdeal
import proofs.«160058_j62663572848802_1_alg».proof.Proof.Gen.KernelIdeal.Frame
import proofs.«160058_j62663572848802_1_alg».proof.Proof.Gen.ReferenceIdeal
import proofs.«160058_j62663572848802_1_alg».proof.Proof.Gen.Pre_finite_inputs
import proofs.«160058_j62663572848802_1_alg».proof.Proof.KRun
import proofs.«160058_j62663572848802_1_alg».proof.Proof.KValue
import proofs.«160058_j62663572848802_1_alg».proof.Proof.RRun
import proofs.«160058_j62663572848802_1_alg».proof.Proof.RVal
import proofs.«160058_j62663572848802_1_alg».proof.Proof.Final
import Idealize.ShloMosaic.Adequacy
import Idealize.ShloMosaic.Init

noncomputable section

namespace Cert.Proof

open Idealize.ShloMosaic Idealize.ShloMosaic.TcCoe Idealize.SL.Sem

/-- The reference's aggregation is the kernel program's: the same host operations on the same literal shapes. -/
theorem refOut_eq (x : FVec Ideal Cert.KernelIdeal.S50000x50 .f32) (e : IVec Cert.KernelIdeal.S2x800000 32) (w1l : FVec Ideal Cert.KernelIdeal.S50x256 .f32) (b1 : FVec Ideal Cert.KernelIdeal.S256 .f32) (w1r : FVec Ideal Cert.KernelIdeal.S50x256 .f32) (wl1 : FVec Ideal Cert.KernelIdeal.S50x256 .f32) (bl1 : FVec Ideal Cert.KernelIdeal.S256 .f32) (w2l : FVec Ideal Cert.KernelIdeal.S256x121 .f32) (b2 : FVec Ideal Cert.KernelIdeal.S121 .f32) (w2r : FVec Ideal Cert.KernelIdeal.S256x121 .f32) (wl2 : FVec Ideal Cert.KernelIdeal.S256x121 .f32) (bl2 : FVec Ideal Cert.KernelIdeal.S121 .f32) :
    Cert.ReferenceIdeal.R.refOut (F := Ideal) x e w1l b1 w1r wl1 bl1 w2l b2 w2r wl2 bl2 = Cert.Sage.network x e w1l b1 w1r wl1 bl1 w2l b2 w2r wl2 bl2 := by
  have hid : Cert.ReferenceIdeal.R.hidden (F := Ideal) x e w1l b1 w1r wl1 bl1 = Cert.Sage.hidden x e w1l b1 w1r wl1 bl1 := by
    unfold Cert.ReferenceIdeal.R.hidden Cert.Sage.hidden
    rw [Cert.ReferenceIdeal.RVal.dense1_eq]
    rfl
  unfold Cert.ReferenceIdeal.R.refOut Cert.Sage.network
  rw [hid, Cert.ReferenceIdeal.RVal.dense2_eq]
  rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RRun.run (F := Ideal) m ρ)

theorem preserves : Cert.preserves_Kernel_KernelIdeal := trivial

/-- Both programs end at `Sage.network` of arguments that agree. -/
theorem algebraic : Cert.algebraic_KernelIdeal_ReferenceIdeal := by
  intro m ρ m' ρ' _ hagree
  refine ⟨fun c => Cert.Sage.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KValue.out_eq m ρ c), (h c).2⟩)
      (Cert.KernelIdeal.KRun.run_out (F := Ideal) m ρ)
  · refine (θ_run Cert.ReferenceIdeal.defs _ _).mono (fun r h c => ⟨(h c).1.trans ?_, (h c).2⟩)
      (Cert.ReferenceIdeal.RRun.run (F := Ideal) m' ρ')
    obtain ⟨a0, a1, a2, a3, a4, a5, a6, a7, a8, a9, a10, a11⟩ := hagree c
    rw [a0, a1, a2, a3, a4, a5, a6, a7, a8, a9, a10, a11]
    exact refOut_eq _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
